-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_bw" .f32 0x41200000#32 ((134217728 / 13421773 : ℝ) : EReal)
  ∧ IdealRules.named_const.Statement Cert.KernelIdeal.κ "inv_bw" .f32 0x41200000#32 ((134217728 / 13421773 : ℝ) : EReal)
  ∧ IdealRules.named_const.Statement Cert.KernelIdeal.κ "inv_bw" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn {F : FTy → Type} [FloatOps F] (main_arg0 : FVec F S64x256x32x32 .f32) (main_arg1 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  main_v8
-- ==== Kernel.lean ====
abbrev S64x256x32x32 : Shape := ⟨4, ![64, 256, 32, 32]⟩
abbrev S64x256x1024 : Shape := ⟨3, ![64, 256, 1024]⟩
abbrev S64x1x128 : Shape := ⟨3, ![64, 1, 128]⟩
abbrev S2x256x1024 : Shape := ⟨3, ![2, 256, 1024]⟩
abbrev S2x1x128 : Shape := ⟨3, ![2, 1, 128]⟩
abbrev S2x1024 : Shape := ⟨2, ![2, 1024]⟩
abbrev S2x1x1024 : Shape := ⟨3, ![2, 1, 1024]⟩
abbrev S2x1024x1024 : Shape := ⟨3, ![2, 1024, 1024]⟩
abbrev S2x1024x1 : Shape := ⟨3, ![2, 1024, 1]⟩
abbrev S2x1 : Shape := ⟨2, ![2, 1]⟩
abbrev S2x1x1 : Shape := ⟨3, ![2, 1, 1]⟩
abbrev S64x1x1 : Shape := ⟨3, ![64, 1, 1]⟩
abbrev S64 : Shape := ⟨1, ![64]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x1024, .f32⟩
  | .hbm, ⟨3, _⟩ => ⟨S64x256x1024, .f32⟩
  | .hbm, ⟨4, _⟩ => ⟨S64x1x128, .f32⟩
  | .hbm, ⟨5, _⟩ => ⟨S64x1x1, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x1x128, .f32⟩
  | .local _ .vmem, ⟨5, _⟩ => ⟨S2x1x128, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x256x32x32_S64x256x1024 : S64x256x32x32.ShapeCasts S64x256x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  reduces_S2x256x1024_S2x1024 : S2x256x1024.Reduces [1] S2x1024
  shapeCasts_S2x1024_S2x1x1024 : S2x1024.ShapeCasts S2x1x1024
  broadcasts_S2x1x1024_S2x256x1024 : S2x1x1024.Broadcasts S2x256x1024
  bitsLt_bf16_f32 : FTy.bits .bf16 < FTy.bits .f32
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  reduces_S2x1024x1_S2x1 : S2x1024x1.Reduces [1] S2x1
  shapeCasts_S2x1_S2x1x1 : S2x1.ShapeCasts S2x1x1
  shapeCasts_S2x1x1_S2x1x1 : S2x1x1.ShapeCasts S2x1x1
  broadcasts_S2x1x1_S2x1x128 : S2x1x1.Broadcasts S2x1x128
  inb_S2x1x128_S2x1x128_0_0_0 : ∀ a, (![0, 0, 0] : Fin 3 → Nat) a + S2x1x128.size a ≤ S2x1x128.size a
  h_S2x1x128 : 0 < S2x1x128.numel
  slices_S64x1x128_S64x1x1_0_0_0 : S64x1x128.Slices ![0, 0, 0] S64x1x1
  shapeCasts_S64x1x1_S64 : S64x1x1.ShapeCasts S64
  bcast_S_S64 : S_.BroadcastsInDim S64 (![] : Fin 0 → Fin S64.rank)
  reducesTo_S64_S_d0 : S64.ReducesTo [0] S_
  h_S_ : 0 < S_.numel
  dot_S2x256x1024_S2x256x1024_S2x1024x1024_1_1_2_2_0_0_wf : DotDims.WF S2x256x1024 S2x256x1024 S2x1024x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S64x256x1024.size a
  hwx0_0 : ∀ i : grid0.Coords, EltTy.bits .f32 = 32 ∨ (Rect.block (s := S64x256x1024) S2x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1024.size a ≤ S64x256x1024.size a
  hwx0_1 : ∀ i : grid0.Coords, EltTy.bits .f32 = 32 ∨ (Rect.block (s := S64x256x1024) S2x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S64x1x128.size a
  hwx0_2 : ∀ i : grid0.Coords, EltTy.bits .f32 = 32 ∨ (Rect.block (s := S64x1x128) S2x1x128.size (cc0_transform_2 i) (hinb0_2 i)).WholeWords (EltTy.packing .f32)

variable [Facts₀]

def dot_S2x256x1024_S2x256x1024_S2x1024x1024_1_1_2_2_0_0 : DotDims S2x256x1024 S2x256x1024 S2x1024x1024 where
  lhsContracting := [1]
  rhsContracting := [1]
  lhsNonContracting := [2]
  rhsNonContracting := [2]
  lhsBatch := [0]
  rhsBatch := [0]
  wf := dot_S2x256x1024_S2x256x1024_S2x1024x1024_1_1_2_2_0_0_wf

abbrev win0_0 : Pipeline.Window sig grid0 :=
  Pipeline.Window.ofSpec (Memref.whole main_v0) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S64x256x1024 : Shape := ⟨3, ![64, 256, 1024]⟩
abbrev S_ : Shape := ⟨0, ![]⟩
abbrev S64x1024 : Shape := ⟨2, ![64, 1024]⟩
abbrev S64x1x1024 : Shape := ⟨3, ![64, 1, 1024]⟩
abbrev S64x1024x1024 : Shape := ⟨3, ![64, 1024, 1024]⟩
abbrev S64x1024x1 : Shape := ⟨3, ![64, 1024, 1]⟩
abbrev S64 : Shape := ⟨1, ![64]⟩

abbrev nBuf : Space → Nat
  | .hbm => 83
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x1024, .f32⟩
  | .hbm, ⟨3, _⟩ => ⟨S64x256x1024, .f32⟩
  | .hbm, ⟨4, _⟩ => ⟨S64x256x1024, .f32⟩
  | .hbm, ⟨5, _⟩ => ⟨S_, .f32⟩
  | .hbm, ⟨6, _⟩ => ⟨S64x1024, .f32⟩
  | .hbm, ⟨7, _⟩ => ⟨S64x1x1024, .f32⟩
  | .hbm, ⟨8, _⟩ => ⟨S64x1x1024, .f32⟩
  | .hbm, ⟨9, _⟩ => ⟨S_, .f32⟩
  | .hbm, ⟨10, _⟩ => ⟨S64x1x1024, .f32⟩
  | .hbm, ⟨11, _⟩ => ⟨S64x1x1024, .f32⟩
  | .hbm, ⟨12, _⟩ => ⟨S64x256x1024, .f32⟩
  | .hbm, ⟨13, _⟩ => ⟨S64x256x1024, .f32⟩
  | .hbm, ⟨14, _⟩ => ⟨S64x256x1024, .f32⟩
  | .hbm, ⟨15, _⟩ => ⟨S_, .f32⟩
  | .hbm, ⟨16, _⟩ => ⟨S64x1024, .f32⟩
  | .hbm, ⟨17, _⟩ => ⟨S64x1x1024, .f32⟩
  | .hbm, ⟨18, _⟩ => ⟨S64x1x1024, .f32⟩
  | .hbm, ⟨19, _⟩ => ⟨S_, .f32⟩
  | .hbm, ⟨20, _⟩ => ⟨S64x1x1024, .f32⟩
  | .hbm, ⟨21, _⟩ => ⟨S64x1x1024, .f32⟩
  | .hbm, ⟨22, _⟩ => ⟨S64x256x1024, .f32⟩
  | .hbm, ⟨23, _⟩ => ⟨S64x256x1024, .f32⟩
  | .hbm, ⟨24, _⟩ => ⟨S64x1024x1024, .f32⟩
  | .hbm, ⟨25, _⟩ => ⟨S_, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64x1024x1024, .f32⟩
  | .hbm, ⟨32, _⟩ => ⟨S64x1024x1024, .f32⟩
  | .hbm, ⟨33, _⟩ => ⟨S_, .f32⟩
  | .hbm, ⟨34, _⟩ => ⟨S64x1024x1024, .f32⟩
  | .hbm, ⟨35, _⟩ => ⟨S64x1024x1024, .f32⟩
  | .hbm, ⟨36, _⟩ => ⟨S_, .f32⟩
  | .hbm, ⟨37, _⟩ => ⟨S64x1024, .f32⟩
  | .hbm, ⟨38, _⟩ => ⟨S64x1024x1, .f32⟩
  | .hbm, ⟨39, _⟩ => ⟨S_, .f32⟩
  | .hbm, ⟨40, _⟩ => ⟨S64x1024x1, .f32⟩
  | .hbm, ⟨41, _⟩ => ⟨S64x1024x1, .f32⟩
  | .hbm, ⟨42, _⟩ => ⟨S64x1024x1024, .f32⟩
  | .hbm, ⟨43, _⟩ => ⟨S64x1024x1024, .f32⟩
  | .hbm, ⟨44, _⟩ => ⟨S_, .f32⟩
  | .hbm, ⟨45, _⟩ => ⟨S64x1024x1024, .f32⟩
  | .hbm, ⟨46, _⟩ => ⟨S64x1024x1024, .f32⟩
  | .hbm, ⟨47, _⟩ => ⟨S_, .f32⟩
  | .hbm, ⟨48, _⟩ => ⟨S64x1024x1024, .f32⟩
  | .hbm, ⟨49, _⟩ => ⟨S64x1024x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S64x1024x1024, .f32⟩
  | .hbm, ⟨54, _⟩ => ⟨S64x1024x1024, .f32⟩
  | .hbm, ⟨55, _⟩ => ⟨S_, .f32⟩
  | .hbm, ⟨56, _⟩ => ⟨S64x1024x1024, .f32⟩
  | .hbm, ⟨57, _⟩ => ⟨S64x1024x1024, .f32⟩
  | .hbm, ⟨58, _⟩ => ⟨S64x1024x1024, .f32⟩
  | .hbm, ⟨59, _⟩ => ⟨S_, .f32⟩
  | .hbm, ⟨60, _⟩ => ⟨S64x1024, .f32⟩
  | .hbm, ⟨61, _⟩ => ⟨S64x1024x1, .f32⟩
  | .hbm, ⟨62, _⟩ => ⟨S_, .f32⟩
  | .hbm, ⟨63, _⟩ => ⟨S64x1024x1, .f32⟩
  | .hbm, ⟨64, _⟩ => ⟨S64x1024x1, .f32⟩
  | .hbm, ⟨65, _⟩ => ⟨S64x1024x1024, .f32⟩
  | .hbm, ⟨66, _⟩ => ⟨S64x1024x1024, .f32⟩
  | .hbm, ⟨67, _⟩ => ⟨S_, .f32⟩
  | .hbm, ⟨68, _⟩ => ⟨S64x1024, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_cst_9 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v26 : Ref sig .tc := ⟨.hbm, 57, rfl⟩
abbrev main_v27 : Ref sig .tc := ⟨.hbm, 58, rfl⟩
abbrev main_cst_10 : Ref sig .tc := ⟨.hbm, 59, rfl⟩
abbrev main_v28 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_12 : Ref sig .tc := ⟨.hbm, 67, rfl⟩
abbrev main_v34 : Ref sig .tc := ⟨.hbm, 68, rfl⟩
abbrev main_cst_13 : Ref sig .tc := ⟨.hbm, 69, rfl⟩
abbrev main_v35 : Ref sig .tc := ⟨.hbm, 70, rfl⟩
abbrev main_cst_14 : Ref sig .tc := ⟨.hbm, 71, rfl⟩
abbrev main_v36 : Ref sig .tc := ⟨.hbm, 72, rfl⟩
abbrev main_v37 : Ref sig .tc := ⟨.hbm, 73, rfl⟩
abbrev main_cst_15 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_16 : Ref sig .tc := ⟨.hbm, 79, rfl⟩
abbrev main_v42 : Ref sig .tc := ⟨.hbm, 80, rfl⟩
abbrev main_cst_17 : Ref sig .tc := ⟨.hbm, 81, rfl⟩
abbrev main_v43 : Ref sig .tc := ⟨.hbm, 82, rfl⟩

abbrev nD : Nat := 1
abbrev τ : Topo := Topo.v7x

variable {F : FTy → Type} [FloatOps F]

class Facts₀ : Prop where
  shapeCasts_S64x256x32x32_S64x256x1024 : S64x256x32x32.ShapeCasts S64x256x1024
  reducesTo_S64x256x1024_S64x1024_d1 : S64x256x1024.ReducesTo [1] S64x1024
  h_S_ : 0 < S_.numel
  bcast_S64x1024_S64x1x1024_0_2 : S64x1024.BroadcastsInDim S64x1x1024 (![0, 2] : Fin 2 → Fin S64x1x1024.rank)
  bcast_S_S64x1x1024 : S_.BroadcastsInDim S64x1x1024 (![] : Fin 0 → Fin S64x1x1024.rank)
  bcast_S64x1x1024_S64x256x1024_0_1_2 : S64x1x1024.BroadcastsInDim S64x256x1024 (![0, 1, 2] : Fin 3 → Fin S64x256x1024.rank)
  bcast_S_S64x1024x1024 : S_.BroadcastsInDim S64x1024x1024 (![] : Fin 0 → Fin S64x1024x1024.rank)
  reducesTo_S64x1024x1024_S64x1024_d2 : S64x1024x1024.ReducesTo [2] S64x1024
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x1024_0_1_2 : S64x1024x1.BroadcastsInDim S64x1024x1024 (![0, 1, 2] : Fin 3 → Fin S64x1024x1024.rank)
  reducesTo_S64x1024_S64_d1 : S64x1024.ReducesTo [1] S64
  bcast_S_S64 : S_.BroadcastsInDim S64 (![] : Fin 0 → Fin S64.rank)
  reducesTo_S64_S_d0 : S64.ReducesTo [0] S_
  dot_S64x256x1024_S64x256x1024_S64x1024x1024_1_1_2_2_0_0_wf : DotDims.WF S64x256x1024 S64x256x1024 S64x1024x1024 [1] [1] [2] [2] [0] [0]

variable [Facts₀]

def dot_S64x256x1024_S64x256x1024_S64x1024x1024_1_1_2_2_0_0 : DotDims S64x256x1024 S64x256x1024 S64x1024x1024 where
  lhsContracting := [1]
  rhsContracting := [1]
  lhsNonContracting := [2]
  rhsNonContracting := [2]
  lhsBatch := [0]
  rhsBatch := [0]
  wf := dot_S64x256x1024_S64x256x1024_S64x1024x1024_1_1_2_2_0_0_wf

class Facts : Prop extends Facts₀ where

variable [Facts]
-- ==== Proof.RowMath.lean ====
/-
  The mathematics of one row of the contextual-similarity matrix, on the extended reals.

  A row holds the similarities `s i` of one feature to every other. From them the distances
  `d i = clip (1 - s i)` to `[z, t]`, the row's least distance `δ = max (min d) e` floored at a positive `e`,
  the weights `w i = exp (clip ((1 - d i / δ) / D))` (clipped to `[l, h]`), and the row's score
  `max_i (w i / (∑ w + e))`.  Two arrangements of that score are shown equal (`score_eq`):
    * the direct one above, and
    * one that takes the row's greatest similarity FIRST (the least distance is the clip of one minus it, a
      clip of an antitone map being antitone), multiplies by the folded reciprocal `c = 1/D`
      (`c - d * ((1/δ) * c) = (1 - d/δ)/D`, an identity of real numbers: every clipped value is real), and
      gets the greatest weight from the least distance (the weight is antitone in the distance) instead of
      scanning the quotients (dividing by one positive real is monotone).
-/
import Idealize.ShloMosaic.PureOps.Ideal
import Mathlib.Data.Finset.Fold

noncomputable section

namespace Cert.RowMath

open Idealize.ShloMosaic

/-! ## Monotone and antitone maps through a running maximum or minimum -/

section Folds

variable {ι α β : Type*} [LinearOrder α] [LinearOrder β]

/-- Over a nonempty set a running maximum started at the bottom is below one of the entries. -/
theorem exists_fold_max_le [OrderBot α] (s : Finset ι) (hs : s.Nonempty) (g : ι → α) :
    ∃ i ∈ s, s.fold max ⊥ g ≤ g i := by
  rcases (Finset.le_fold_max (s := s) (f := g) (b := ⊥) (s.fold max ⊥ g)).mp le_rfl with h | h
  · obtain ⟨i, hi⟩ := hs
    exact ⟨i, hi, h.trans bot_le⟩
  · exact h

/-- Over a nonempty set a running minimum started at the top is above one of the entries. -/
theorem exists_le_fold_min [OrderTop α] (s : Finset ι) (hs : s.Nonempty) (g : ι → α) :
    ∃ i ∈ s, g i ≤ s.fold min ⊤ g := by
  rcases (Finset.fold_min_le (s := s) (f := g) (b := ⊤) (s.fold min ⊤ g)).mp le_rfl with h | h
  · obtain ⟨i, hi⟩ := hs
    exact ⟨i, hi, le_top.trans h⟩
  · exact h

theorem le_fold_max_of_mem [OrderBot α] (s : Finset ι) (g : ι → α) {i : ι} (hi : i ∈ s) : g i ≤ s.fold max ⊥ g :=
  (Finset.le_fold_max (g i)).mpr (Or.inr ⟨i, hi, le_rfl⟩)

theorem fold_min_le_of_mem [OrderTop α] (s : Finset ι) (g : ι → α) {i : ι} (hi : i ∈ s) : s.fold min ⊤ g ≤ g i :=
  (Finset.fold_min_le (g i)).mpr (Or.inr ⟨i, hi, le_rfl⟩)

/-- An antitone map takes the greatest entry to the least image. -/
theorem antitone_fold_max [OrderBot α] [OrderTop β] (s : Finset ι) (hs : s.Nonempty) (f : α → β) (hf : Antitone f)
    (g : ι → α) : f (s.fold max ⊥ g) = s.fold min ⊤ fun i => f (g i) := by
  apply le_antisymm
  · exact (Finset.le_fold_min _).mpr ⟨le_top, fun i hi => hf (le_fold_max_of_mem s g hi)⟩
  · obtain ⟨i, hi, h⟩ := exists_fold_max_le s hs g
    exact (fold_min_le_of_mem s (fun i => f (g i)) hi).trans (hf h)

/-- An antitone map takes the least entry to the greatest image. -/
theorem antitone_fold_min [OrderTop α] [OrderBot β] (s : Finset ι) (hs : s.Nonempty) (f : α → β) (hf : Antitone f)
    (g : ι → α) : f (s.fold min ⊤ g) = s.fold max ⊥ fun i => f (g i) := by
  apply le_antisymm
  · obtain ⟨i, hi, h⟩ := exists_le_fold_min s hs g
    exact (hf h).trans (le_fold_max_of_mem s (fun i => f (g i)) hi)
  · exact (Finset.fold_max_le _).mpr ⟨bot_le, fun i hi => hf (fold_min_le_of_mem s g hi)⟩

/-- A monotone map takes the greatest entry to the greatest image. -/
theorem monotone_fold_max [OrderBot α] [OrderBot β] (s : Finset ι) (hs : s.Nonempty) (f : α → β) (hf : Monotone f)
    (g : ι → α) : f (s.fold max ⊥ g) = s.fold max ⊥ fun i => f (g i) := by
  apply le_antisymm
  · obtain ⟨i, hi, h⟩ := exists_fold_max_le s hs g
    exact (hf h).trans (le_fold_max_of_mem s (fun i => f (g i)) hi)
  · exact (Finset.fold_max_le _).mpr ⟨bot_le, fun i hi => hf (le_fold_max_of_mem s g hi)⟩

end Folds

/-! ## Clipped values are real -/

/-- Whatever extended real is clipped to a real interval, the result is a real number of the interval. -/
theorem clip_real {lo hi : ℝ} (h : lo ≤ hi) (x : EReal) :
    ∃ r : ℝ, lo ≤ r ∧ r ≤ hi ∧ min (hi : EReal) (max (lo : EReal) x) = (r : EReal) := by
  induction x using EReal.rec with
  | bot => exact ⟨lo, le_rfl, h, by rw [max_eq_left bot_le, min_eq_right (EReal.coe_le_coe_iff.mpr h)]⟩
  | top => exact ⟨hi, h, le_rfl, by rw [max_eq_right le_top, min_eq_left le_top]⟩
  | coe r =>
    refine ⟨min hi (max lo r), le_min h (le_max_left _ _), min_le_left _ _, ?_⟩
    rw [EReal.coe_strictMono.monotone.map_min, EReal.coe_strictMono.monotone.map_max]

/-- The clip to `[lo, hi]` is monotone. -/
theorem clip_mono (lo hi : EReal) : Monotone fun x : EReal => min hi (max lo x) :=
  fun _ _ h => min_le_min le_rfl (max_le_max le_rfl h)

/-! ## The operations' order -/

/-- The exponential is monotone on the extended reals, `e^(-∞) = 0` and `e^(+∞) = +∞` included. -/
theorem exp_mono : Monotone Ideal.exp := by
  intro a b h
  induction a using EReal.rec with
  | bot =>
    induction b using EReal.rec with
    | bot => exact le_rfl
    | top => exact le_top
    | coe y => rw [Ideal.exp_bot, Ideal.exp_coe]; exact EReal.coe_nonneg.mpr (Real.exp_pos y).le
  | top =>
    induction b using EReal.rec with
    | bot => exact absurd h (by simp)
    | top => exact le_rfl
    | coe y => exact absurd h (by simp)
  | coe x =>
    induction b using EReal.rec with
    | bot => exact absurd h (by simp)
    | top => exact le_top
    | coe y =>
      rw [Ideal.exp_coe, Ideal.exp_coe]
      exact EReal.coe_le_coe_iff.mpr (Real.exp_le_exp.mpr (EReal.coe_le_coe_iff.mp h))

/-- Dividing by one positive real is monotone on the extended reals. -/
theorem div_pos_mono {y : ℝ} (hy : 0 < y) : Monotone fun x : EReal => Ideal.div x (y : EReal) := by
  intro a b h
  show Ideal.div a (y : EReal) ≤ Ideal.div b (y : EReal)
  rw [Ideal.div_coe hy.ne', Ideal.div_coe hy.ne']
  exact mul_le_mul_of_nonneg_right h (EReal.coe_nonneg.mpr (by positivity))

/-- One minus is antitone on the extended reals. -/
theorem one_sub_anti : Antitone fun x : EReal => (1 : EReal) - x :=
  fun _ _ h => EReal.sub_le_sub le_rfl h

/-! ## The folded reciprocal -/

/-- With `c = 1/D` folded in, `c - d · ((1/δ) · c)` is `(1 - d/δ) / D`: an identity of real numbers, read on the
    extended reals. -/
theorem folded_exponent {d δ D c : ℝ} (hδ : δ ≠ 0) (hD : D ≠ 0) (hc : c = 1 / D) :
    (c : EReal) - (d : EReal) * (Ideal.div 1 (δ : EReal) * (c : EReal))
      = Ideal.div (1 - Ideal.div (d : EReal) (δ : EReal)) (D : EReal) := by
  rw [Ideal.div_coe hδ, Ideal.div_coe hδ, Ideal.div_coe hD]
  rw [← EReal.coe_one, ← EReal.coe_mul, ← EReal.coe_mul, ← EReal.coe_mul, ← EReal.coe_mul, ← EReal.coe_sub,
    ← EReal.coe_sub, ← EReal.coe_mul]
  congr 1
  rw [hc]
  field_simp

/-- A finite sum of real numbers, read on the extended reals, is the real sum. -/
theorem coe_sum {ι : Type*} (s : Finset ι) (a : ι → ℝ) :
    ∑ j ∈ s, (a j : EReal) = ((∑ j ∈ s, a j : ℝ) : EReal) := by
  classical
  induction s using Finset.induction_on with
  | empty => simp
  | insert i s hi ih => rw [Finset.sum_insert hi, Finset.sum_insert hi, ih, EReal.coe_add]

/-! ## One row -/

section Row

variable {ι : Type*} [Fintype ι] [Nonempty ι]
variable {z t e l h D c : ℝ}

/-- The distance of a similarity: one minus it, clipped to `[z, t]`. -/
def dist (z t : ℝ) (x : EReal) : EReal := min (t : EReal) (max (z : EReal) (1 - x))

theorem dist_anti (z t : ℝ) : Antitone (dist z t) :=
  fun _ _ hab => clip_mono (z : EReal) (t : EReal) (one_sub_anti hab)

theorem dist_real (hzt : z ≤ t) (x : EReal) : ∃ r : ℝ, z ≤ r ∧ r ≤ t ∧ dist z t x = (r : EReal) :=
  clip_real hzt (1 - x)

/-- The weight of a distance `d` in a row whose floored least distance is `δ`: `exp (clip ((1 - d/δ) / D))`. -/
def refWeight (l h D : ℝ) (δ d : EReal) : EReal :=
  Ideal.exp (min (h : EReal) (max (l : EReal) (Ideal.div (1 - Ideal.div d δ) (D : EReal))))

/-- The same weight with the reciprocals folded: `exp (clip (c - d · σ))`, `σ` standing for `(1/δ) · c`. -/
def kerWeight (l h c : ℝ) (σ d : EReal) : EReal :=
  Ideal.exp (min (h : EReal) (max (l : EReal) ((c : EReal) - d * σ)))

/-- The weight is antitone in the distance. -/
theorem refWeight_anti {δ : ℝ} (hδ : 0 < δ) (hD : 0 < D) (l h : ℝ) : Antitone (refWeight l h D (δ : EReal)) :=
  fun _ _ hab => exp_mono (clip_mono (l : EReal) (h : EReal) (div_pos_mono hD (one_sub_anti (div_pos_mono hδ hab))))

/-- A weight is the exponential of a real number: a positive real. -/
theorem refWeight_real (hlh : l ≤ h) (D : ℝ) (δ d : EReal) :
    ∃ q : ℝ, refWeight l h D δ d = ((Real.exp q : ℝ) : EReal) := by
  obtain ⟨q, -, -, hq⟩ := clip_real hlh (Ideal.div (1 - Ideal.div d δ) (D : EReal))
  exact ⟨q, by unfold refWeight; rw [hq, Ideal.exp_coe]⟩

/-- The row's score, scanned directly: the greatest of the weights' quotients by their sum plus `e`, the
    weights taken against the row's least distance floored at `e`. -/
def refScore (z t e l h D : ℝ) (s : ι → EReal) : EReal :=
  Finset.univ.fold max ⊥ fun i =>
    Ideal.div (refWeight l h D (max (Finset.univ.fold min ⊤ fun i => dist z t (s i)) (e : EReal)) (dist z t (s i)))
      ((∑ j, refWeight l h D (max (Finset.univ.fold min ⊤ fun i => dist z t (s i)) (e : EReal)) (dist z t (s j))) + (e : EReal))

/-- The row's score from the row's greatest similarity: the least distance is the distance of the greatest
    similarity, and the greatest weight is the least distance's. -/
def kerScore (z t e l h c : ℝ) (s : ι → EReal) : EReal :=
  Ideal.div
    (kerWeight l h c (Ideal.div 1 (max (dist z t (Finset.univ.fold max ⊥ s)) (e : EReal)) * (c : EReal))
      (dist z t (Finset.univ.fold max ⊥ s)))
    ((∑ j, kerWeight l h c (Ideal.div 1 (max (dist z t (Finset.univ.fold max ⊥ s)) (e : EReal)) * (c : EReal))
      (dist z t (s j))) + (e : EReal))

/-- The two arrangements of a row's score agree. -/
theorem score_eq (hzt : z ≤ t) (he : 0 < e) (hlh : l ≤ h) (hD : 0 < D) (hc : c = 1 / D) (s : ι → EReal) :
    kerScore z t e l h c s = refScore z t e l h D s := by
  have hmin : dist z t (Finset.univ.fold max ⊥ s) = Finset.univ.fold min ⊤ fun i => dist z t (s i) :=
    antitone_fold_max Finset.univ Finset.univ_nonempty (dist z t) (dist_anti z t) s
  obtain ⟨r, -, -, hr⟩ := dist_real hzt (Finset.univ.fold max ⊥ s)
  have hδ : max (r : EReal) (e : EReal) = ((max r e : ℝ) : EReal) := (EReal.coe_strictMono.monotone.map_max).symm
  have hδpos : 0 < max r e := lt_max_of_lt_right he
  have hw : ∀ ρ : ℝ, kerWeight l h c (Ideal.div 1 ((max r e : ℝ) : EReal) * (c : EReal)) (ρ : EReal)
      = refWeight l h D ((max r e : ℝ) : EReal) (ρ : EReal) := fun ρ => by
    unfold kerWeight refWeight
    rw [folded_exponent hδpos.ne' hD.ne' hc]
  have hws : ∀ j, kerWeight l h c (Ideal.div 1 ((max r e : ℝ) : EReal) * (c : EReal)) (dist z t (s j))
      = refWeight l h D ((max r e : ℝ) : EReal) (dist z t (s j)) := fun j => by
    obtain ⟨ρ, -, -, hρ⟩ := dist_real hzt (s j)
    rw [hρ]; exact hw ρ
  unfold kerScore refScore
  rw [← hmin, hr, hδ, hw r]
  simp only [hws]
  -- the row's sum of weights, plus `e`, is a positive real
  obtain ⟨σ, hσ, hS⟩ : ∃ σ : ℝ, 0 < σ ∧
      (∑ j, refWeight l h D ((max r e : ℝ) : EReal) (dist z t (s j))) + (e : EReal) = (σ : EReal) := by
    choose q hq using fun j => refWeight_real hlh D ((max r e : ℝ) : EReal) (dist z t (s j))
    refine ⟨(∑ j, Real.exp (q j)) + e, add_pos_of_nonneg_of_pos (Finset.sum_nonneg fun j _ => (Real.exp_pos _).le) he, ?_⟩
    simp only [hq]
    rw [coe_sum, ← EReal.coe_add]
  rw [hS]
  calc Ideal.div (refWeight l h D ((max r e : ℝ) : EReal) (r : EReal)) (σ : EReal)
      = Ideal.div (Finset.univ.fold max ⊥ fun i => refWeight l h D ((max r e : ℝ) : EReal) (dist z t (s i))) (σ : EReal) := by
        rw [← hr, hmin]
        exact congrArg (fun x => Ideal.div x (σ : EReal))
          (antitone_fold_min Finset.univ Finset.univ_nonempty (refWeight l h D ((max r e : ℝ) : EReal))
            (refWeight_anti hδpos hD l h) fun i => dist z t (s i))
    _ = Finset.univ.fold max ⊥ fun i =>
          Ideal.div (refWeight l h D ((max r e : ℝ) : EReal) (dist z t (s i))) (σ : EReal) :=
        monotone_fold_max Finset.univ Finset.univ_nonempty (fun x => Ideal.div x (σ : EReal)) (div_pos_mono hσ)
          fun i => refWeight l h D ((max r e : ℝ) : EReal) (dist z t (s i))

end Row

end Cert.RowMath

end
-- ==== Proof.Spec.lean ====
/-
  What both programs compute for one batch element, as one function of that element's two feature
  matrices (256 channels by 1024 positions each).

  Each position's feature vector is divided by its Euclidean norm floored at `ε` (`unit`); the similarity of
  position `n` of the first matrix to position `m` of the second is the inner product of their unit vectors
  (`sim`); a row of similarities is scored by `RowMath.refScore`; the batch element's value is the mean of its
  1024 row scores (`mean`).
-/
import Idealize.ShloMosaic.PureOps.Ideal
import proofs.«428808_j73306501808909_3_alg».proof.Proof.RowMath

noncomputable section

namespace Cert.Spec

open Idealize.ShloMosaic

/-- One batch element's features: 256 channels at 1024 positions. -/
abbrev Feat := Fin 256 → Fin 1024 → EReal

/-- The real numbers the programs' decimal constants denote: `ε` (the f32 nearest 1e-5), the bandwidth (the
    f32 nearest 0.1) and its exact reciprocal. -/
def epsR : ℝ := 2748779 / 274877906944
def bwR : ℝ := 13421773 / 134217728
def invBwR : ℝ := 134217728 / 13421773

/-- Channel `k` of position `n`'s feature vector, the vector divided by its norm floored at `ε`. -/
def unit (z : Feat) (k : Fin 256) (n : Fin 1024) : EReal :=
  Ideal.div (z k n) (max (Ideal.sqrt (∑ j : Fin 256, z j n * z j n)) (Ideal.ofBits .f32 0x3727C5AC#32))

/-- The similarity of position `n` of `y` to position `m` of `x`. -/
def sim (y x : Feat) (n m : Fin 1024) : EReal := ∑ k : Fin 256, unit y k n * unit x k m

/-- Row `n`'s score. -/
def rowScore (y x : Feat) (n : Fin 1024) : EReal :=
  RowMath.refScore 0 2 epsR (-50) 50 bwR fun m => sim y x n m

/-- The mean of the row scores. -/
def mean (y x : Feat) : EReal :=
  Ideal.div (∑ n : Fin 1024, rowScore y x n) (Ideal.ofBits .f32 0x44800000#32)

/-- The row score from the row's greatest similarity and the folded reciprocal of the bandwidth. -/
theorem kerScore_eq_rowScore (y x : Feat) (n : Fin 1024) :
    RowMath.kerScore 0 2 epsR (-50) 50 invBwR (fun m => sim y x n m) = rowScore y x n :=
  RowMath.score_eq (by norm_num) (by norm_num [epsR]) (by norm_num) (by norm_num [bwR])
    (by norm_num [invBwR, bwR]) _

end Cert.Spec

end
-- ==== Proof.Consts.lean ====
/-
  The float constants the two programs spell, as the extended reals their bit patterns denote. Stated once, so
  that no other module unfolds a bit pattern.
-/
import Idealize.ShloMosaic.PureOps.Ideal

noncomputable section

namespace Cert.Consts

open Idealize.ShloMosaic

/-- `+0.0` denotes `0`. -/
theorem w_zero : Ideal.ofBits .f32 0x00000000#32 = ((0 : ℝ) : EReal) := by
  simp [Ideal.ofBits, Ideal.ieee]

/-- `1.0` denotes `1`. -/
theorem w_one : Ideal.ofBits .f32 0x3F800000#32 = (1 : EReal) := by
  simp [Ideal.ofBits, Ideal.ieee, -EReal.coe_mul]; norm_num

/-- `2.0` denotes `2`. -/
theorem w_two : Ideal.ofBits .f32 0x40000000#32 = ((2 : ℝ) : EReal) := by
  simp [Ideal.ofBits, Ideal.ieee, -EReal.coe_mul]; norm_num

/-- `-50.0` denotes `-50`. -/
theorem w_neg50 : Ideal.ofBits .f32 0xC2480000#32 = ((-50 : ℝ) : EReal) := by
  simp [Ideal.ofBits, Ideal.ieee, -EReal.coe_mul]; norm_num

/-- `50.0` denotes `50`. -/
theorem w_50 : Ideal.ofBits .f32 0x42480000#32 = ((50 : ℝ) : EReal) := by
  simp [Ideal.ofBits, Ideal.ieee, -EReal.coe_mul]; norm_num

/-- The f32 nearest `1e-5` is the dyadic `2748779 / 2^38`. -/
theorem w_eps : Ideal.ofBits .f32 0x3727C5AC#32 = ((2748779 / 274877906944 : ℝ) : EReal) := by
  simp [Ideal.ofBits, Ideal.ieee, -EReal.coe_mul]; norm_num

/-- The f32 nearest `0.1` is the dyadic `13421773 / 2^27`. -/
theorem w_tenth : Ideal.ofBits .f32 0x3DCCCCCD#32 = ((13421773 / 134217728 : ℝ) : EReal) := by
  simp [Ideal.ofBits, Ideal.ieee, -EReal.coe_mul]; norm_num

/-- The infinities' patterns. -/
theorem w_top : Ideal.ofBits .f32 0x7F800000#32 = ⊤ := by simp [Ideal.ofBits, Ideal.ieee]
theorem w_bot : Ideal.ofBits .f32 0xFF800000#32 = ⊥ := by simp [Ideal.ofBits, Ideal.ieee]

end Cert.Consts

end
-- ==== Proof.KerSide.lean ====
/-
  The kernel body's stored value, read at an index: lane `l` of row `p` of the output block is `Spec.mean` of
  the two input blocks' slices at `p`.
-/
import proofs.«428808_j73306501808909_3_alg».proof.Proof.Gen.KernelIdeal.Skeleton
import proofs.«428808_j73306501808909_3_alg».proof.Proof.Spec
import proofs.«428808_j73306501808909_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KerSide

open Cert.KernelIdeal Cert.KernelIdeal.Gen Idealize.ShloMosaic Idealize.ShloMosaic.TcCoe
open Idealize.ShloMosaic.ValueIdx

/-- The kernel's named constant denotes the exact reciprocal of the reference's bandwidth word. -/
theorem inv_bw : Named.named (F := Ideal) Cert.KernelIdeal.κ "inv_bw" (φ := .f32) 0x41200000#32 = ((Spec.invBwR : ℝ) : EReal) :=
  IdealRules.named_const.ideal_named_scalar _ _ _ _ rfl

/-! ## Unit axes put in the middle or at the end, and broadcasts along them, read at an index -/

section Layout
variable {α : Type}

/-- An `[a, b]` array cast to `[a, 1, b]` reads, at `(p, u, n)`, the operand at `(p, n)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (n : Fin b) :
    shapeCast ⟨3, ![a, 1, b]⟩ x h (ix3 p u n) = x (ix2 p n) :=
  shapeCast_apply x h _ _ (by
    have hu : u.val = 0 := by omega
    rw [Shape.rowMajor_val_three, Shape.rowMajor_val_two]
    show p.val * b + n.val = (p.val * 1 + u.val) * b + n.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, b]` array broadcast to `[a, c, b]` reads, at `(p, k, n)`, the operand's one row at `(p, 0, n)`. -/
theorem broadcastTo_a1b_acb_apply {a b c : ℕ} (v : (⟨3, ![a, 1, b]⟩ : Shape).Idx → α)
    (h : (⟨3, ![a, 1, b]⟩ : Shape).Broadcasts ⟨3, ![a, c, b]⟩) (p : Fin a) (k : Fin c) (n : Fin b) :
    broadcastTo ⟨3, ![a, c, b]⟩ v h (ix3 p k n) = v (ix3 p (0 : Fin 1) n) := by
  refine broadcastTo_apply v h (ix3 p k n) (ix3 p (0 : Fin 1) n) fun ax => ?_
  match ax with
  | ⟨0, _⟩ =>
    show p.val = if a = 1 then 0 else p.val
    split
    · have := p.isLt; omega
    · rfl
  | ⟨1, _⟩ => rfl
  | ⟨2, _⟩ =>
    show n.val = if b = 1 then 0 else n.val
    split
    · have := n.isLt; omega
    · rfl

/-- An `[a, b, 1]` array broadcast to `[a, b, c]` reads, at `(p, n, m)`, the operand's one column at `(p, n, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (n : Fin b) (m : Fin c) :
    broadcastTo ⟨3, ![a, b, c]⟩ v h (ix3 p n m) = v (ix3 p n (0 : Fin 1)) := by
  refine broadcastTo_apply v h (ix3 p n m) (ix3 p n (0 : Fin 1)) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl

end Layout

/-! ## The index a one-axis reduction puts back -/

/-- Over result index `(p, n)` of a reduction along the middle axis, coordinate `k` put back gives `(p, k, n)`. -/
theorem lift3_axis1 {a b c : ℕ} (h : (⟨3, ![a, b, c]⟩ : Shape).Reduces [1] ⟨2, ![a, c]⟩) (p : Fin a) (n : Fin c)
    (k : Fin ((⟨3, ![a, b, c]⟩ : Shape).size 1)) : h.lift (ix2 p n) k = ix3 p (⟨k.val, k.isLt⟩ : Fin b) n := by
  funext d; apply Fin.ext
  fin_cases d <;> rfl

/-- Over result index `(p, n)` of a reduction along the last axis, coordinate `m` put back gives `(p, n, m)`. -/
theorem lift3_axis2 {a b c : ℕ} (h : (⟨3, ![a, b, c]⟩ : Shape).Reduces [2] ⟨2, ![a, b]⟩) (p : Fin a) (n : Fin b)
    (m : Fin ((⟨3, ![a, b, c]⟩ : Shape).size 2)) : h.lift (ix2 p n) m = ix3 p n (⟨m.val, m.isLt⟩ : Fin c) := by
  funext d; apply Fin.ext
  fin_cases d <;> rfl

/-! ## The matrix product read at an index -/

theorem dot_lhs_0 (i : S2x1024x1024.Idx) (q : dot_S2x256x1024_S2x256x1024_S2x1024x1024_1_1_2_2_0_0.contr.Idx) :
    (dot_S2x256x1024_S2x256x1024_S2x1024x1024_1_1_2_2_0_0.lhsIdx i q 0).val = (i 0).val := by
  unfold DotDims.lhsIdx
  rw [dif_pos (show (0 : Fin S2x256x1024.rank) ∈ dot_S2x256x1024_S2x256x1024_S2x1024x1024_1_1_2_2_0_0.lhsBatch by decide)]
  rfl
theorem dot_lhs_1 (i : S2x1024x1024.Idx) (q : dot_S2x256x1024_S2x256x1024_S2x1024x1024_1_1_2_2_0_0.contr.Idx) :
    (dot_S2x256x1024_S2x256x1024_S2x1024x1024_1_1_2_2_0_0.lhsIdx i q 1).val = (q ⟨0, by decide⟩).val :=
  dot_S2x256x1024_S2x256x1024_S2x1024x1024_1_1_2_2_0_0.lhsIdx_val_of_single rfl i q
theorem dot_lhs_2 (i : S2x1024x1024.Idx) (q : dot_S2x256x1024_S2x256x1024_S2x1024x1024_1_1_2_2_0_0.contr.Idx) :
    (dot_S2x256x1024_S2x256x1024_S2x1024x1024_1_1_2_2_0_0.lhsIdx i q 2).val = (i 1).val := by
  unfold DotDims.lhsIdx
  rw [dif_neg (show ¬(2 : Fin S2x256x1024.rank) ∈ dot_S2x256x1024_S2x256x1024_S2x1024x1024_1_1_2_2_0_0.lhsBatch by decide), dif_pos (show (2 : Fin S2x256x1024.rank) ∈ dot_S2x256x1024_S2x256x1024_S2x1024x1024_1_1_2_2_0_0.lhsNonContracting by decide)]
  rfl
theorem dot_rhs_0 (i : S2x1024x1024.Idx) (q : dot_S2x256x1024_S2x256x1024_S2x1024x1024_1_1_2_2_0_0.contr.Idx) :
    (dot_S2x256x1024_S2x256x1024_S2x1024x1024_1_1_2_2_0_0.rhsIdx i q 0).val = (i 0).val := by
  unfold DotDims.rhsIdx
  rw [dif_pos (show (0 : Fin S2x256x1024.rank) ∈ dot_S2x256x1024_S2x256x1024_S2x1024x1024_1_1_2_2_0_0.rhsBatch by decide)]
  rfl
theorem dot_rhs_1 (i : S2x1024x1024.Idx) (q : dot_S2x256x1024_S2x256x1024_S2x1024x1024_1_1_2_2_0_0.contr.Idx) :
    (dot_S2x256x1024_S2x256x1024_S2x1024x1024_1_1_2_2_0_0.rhsIdx i q 1).val = (q ⟨0, by decide⟩).val :=
  dot_S2x256x1024_S2x256x1024_S2x1024x1024_1_1_2_2_0_0.rhsIdx_val_of_single rfl i q
theorem dot_rhs_2 (i : S2x1024x1024.Idx) (q : dot_S2x256x1024_S2x256x1024_S2x1024x1024_1_1_2_2_0_0.contr.Idx) :
    (dot_S2x256x1024_S2x256x1024_S2x1024x1024_1_1_2_2_0_0.rhsIdx i q 2).val = (i 2).val := by
  unfold DotDims.rhsIdx
  rw [dif_neg (show ¬(2 : Fin S2x256x1024.rank) ∈ dot_S2x256x1024_S2x256x1024_S2x1024x1024_1_1_2_2_0_0.rhsBatch by decide), dif_pos (show (2 : Fin S2x256x1024.rank) ∈ dot_S2x256x1024_S2x256x1024_S2x1024x1024_1_1_2_2_0_0.rhsNonContracting by decide)]
  rfl

/-- Into the zero block, the product of two `[2, 256, 1024]` blocks contracted over the channels reads, at `(p, n, m)`, the
    sum over the channels `k` of the left block at `(p, k, n)` times the right block at `(p, k, m)`. -/
theorem matmul_ix3_apply {φ₁ φ₂ : FTy} (L : FVec Ideal S2x256x1024 φ₁) (R : FVec Ideal S2x256x1024 φ₂) (p : Fin 2) (n m : Fin 1024) :
    matmul dot_S2x256x1024_S2x256x1024_S2x1024x1024_1_1_2_2_0_0 none L R (constant S2x1024x1024 .f32 0x00000000#32) (ix3 p n m)
      = ∑ k : Fin 256, L (ix3 p k n) * R (ix3 p k m) := by
  refine (Ideal.matmul_constant_zero_apply _ _ L R (ix3 p n m)).trans ?_
  rw [← Equiv.sum_comp (ValueIdx.contrEquiv1 dot_S2x256x1024_S2x256x1024_S2x1024x1024_1_1_2_2_0_0 256 rfl rfl).symm]
  refine Finset.sum_congr rfl fun k _ => ?_
  have hk := ValueIdx.contrEquiv1_symm_val dot_S2x256x1024_S2x256x1024_S2x1024x1024_1_1_2_2_0_0 256 rfl rfl k
  have el : dot_S2x256x1024_S2x256x1024_S2x1024x1024_1_1_2_2_0_0.lhsIdx (ix3 p n m) ((ValueIdx.contrEquiv1 dot_S2x256x1024_S2x256x1024_S2x1024x1024_1_1_2_2_0_0 256 rfl rfl).symm k) = ix3 p k n := funext fun a => Fin.ext (by
    match a with
    | ⟨0, _⟩ => exact dot_lhs_0 _ _
    | ⟨1, _⟩ => exact (dot_lhs_1 _ _).trans hk
    | ⟨2, _⟩ => exact dot_lhs_2 _ _)
  have er : dot_S2x256x1024_S2x256x1024_S2x1024x1024_1_1_2_2_0_0.rhsIdx (ix3 p n m) ((ValueIdx.contrEquiv1 dot_S2x256x1024_S2x256x1024_S2x1024x1024_1_1_2_2_0_0 256 rfl rfl).symm k) = ix3 p k m := funext fun a => Fin.ext (by
    match a with
    | ⟨0, _⟩ => exact dot_rhs_0 _ _
    | ⟨1, _⟩ => exact (dot_rhs_1 _ _).trans hk
    | ⟨2, _⟩ => exact dot_rhs_2 _ _)
  rw [el, er]

/-! ## The normalised blocks and their product -/

/-- A sum of squares over the channels: the reduction along the middle axis of a block times itself, at `(p, n)`. -/
theorem sumsq_apply (v : FVec Ideal S2x256x1024 .f32) (h : S2x256x1024.Reduces [1] S2x1024) (hφ : FKind.Formats .f32)
    (hacc : (0x00000000#32 : BitVec (FTy.bits .f32)) = FKind.add.neutral .f32 hφ) (p : Fin 2) (n : Fin 1024) :
    multiReduction .add [1] S2x1024 (mulf v v) 0x00000000#32 h hφ hacc (ix2 p n) = ∑ j : Fin 256, v (ix3 p j n) * v (ix3 p j n) := by
  refine (Ideal.multiReduction_add_single (mulf v v) _ h hφ hacc (ix2 p n)).trans ?_
  refine Finset.sum_congr rfl fun j _ => ?_
  exact congrArg (mulf v v) (lift3_axis1 h p n j)

/-- The kernel's normalised block: each position's vector over its norm floored at the small constant, narrowed. -/
def nrm (v : Vec Ideal S2x256x1024 .f32) : FVec Ideal S2x256x1024 .bf16 :=
  truncf .bf16
    (divf (shapeCast S2x256x1024 v Facts₀.shapeCasts_S2x256x1024_S2x256x1024)
      (broadcastTo S2x256x1024
        (maximumf
          (sqrt (shapeCast S2x1x1024
            (multiReduction .add [1] S2x1024
              (mulf (shapeCast S2x256x1024 v Facts₀.shapeCasts_S2x256x1024_S2x256x1024) (shapeCast S2x256x1024 v Facts₀.shapeCasts_S2x256x1024_S2x256x1024))
              0x00000000#32 Facts₀.reduces_S2x256x1024_S2x1024 (.inl rfl) rfl)
            Facts₀.shapeCasts_S2x1024_S2x1x1024))
          (broadcast S2x1x1024 (Scalar.ofBits .f32 0x3727C5AC#32)))
        Facts₀.broadcasts_S2x1x1024_S2x256x1024))
    Facts₀.bitsLt_bf16_f32

/-- The normalised block at `(p, k, n)` is channel `k` of position `n`'s unit vector. -/
theorem nrm_apply (v : Vec Ideal S2x256x1024 .f32) (p : Fin 2) (k : Fin 256) (n : Fin 1024) :
    nrm v (ix3 p k n) = Spec.unit (fun k n => v (ix3 p k n)) k n := by
  unfold nrm Spec.unit
  rw [shapeCast_self]
  show Ideal.div (v (ix3 p k n)) (broadcastTo S2x256x1024
        (maximumf (F := Ideal)
          (sqrt (shapeCast S2x1x1024
            (multiReduction .add [1] S2x1024 (mulf v v) 0x00000000#32 Facts₀.reduces_S2x256x1024_S2x1024 (.inl rfl) rfl)
            Facts₀.shapeCasts_S2x1024_S2x1x1024))
          (broadcast S2x1x1024 (Scalar.ofBits .f32 0x3727C5AC#32)))
        Facts₀.broadcasts_S2x1x1024_S2x256x1024 (ix3 p k n)) = _
  refine congrArg (Ideal.div (v (ix3 p k n))) ?_
  refine (broadcastTo_a1b_acb_apply _ _ p k n).trans ?_
  show max (Ideal.sqrt (shapeCast S2x1x1024
            (multiReduction (F := Ideal) .add [1] S2x1024 (mulf v v) 0x00000000#32 Facts₀.reduces_S2x256x1024_S2x1024 (.inl rfl) rfl)
            Facts₀.shapeCasts_S2x1024_S2x1x1024 (ix3 p (0 : Fin 1) n))) (Ideal.ofBits .f32 0x3727C5AC#32) = _
  refine congrArg (fun t => max (Ideal.sqrt t) (Ideal.ofBits .f32 0x3727C5AC#32)) ?_
  refine (shapeCast_ab_a1b_apply _ _ p (0 : Fin 1) n).trans ?_
  exact sumsq_apply v _ _ _ p n

/-- The product of the normalised blocks at `(p, n, m)` is the similarity of position `n` of the first to position `m` of the second. -/
theorem pay2_apply (x0 x1 : Vec Ideal S2x256x1024 .f32) (p : Fin 2) (n m : Fin 1024) :
    k0_pay2 (F := Ideal) x0 x1 (ix3 p n m) = Spec.sim (fun k n => x0 (ix3 p k n)) (fun k n => x1 (ix3 p k n)) n m := by
  have e : k0_pay2 (F := Ideal) x0 x1
      = matmul dot_S2x256x1024_S2x256x1024_S2x1024x1024_1_1_2_2_0_0 none (nrm x0) (nrm x1) (constant S2x1024x1024 .f32 0x00000000#32) := rfl
  rw [e, matmul_ix3_apply]
  unfold Spec.sim
  refine Finset.sum_congr rfl fun k _ => ?_
  rw [nrm_apply, nrm_apply]

/-! ## The row's greatest similarity, its distance, the folded reciprocal, and the distances' block -/

/-- A running maximum from `-∞` along the last axis, at `(p, n)`: the greatest of row `n`'s entries. -/
theorem rowmax_apply (s : FVec Ideal S2x1024x1024 .f32) (h : S2x1024x1024.Reduces [2] S2x1024) (hφ : FKind.Formats .f32)
    (hacc : (0xFF800000#32 : BitVec (FTy.bits .f32)) = FKind.maximumf.neutral .f32 hφ) (p : Fin 2) (n : Fin 1024) :
    multiReduction .maximumf [2] S2x1024 s 0xFF800000#32 h hφ hacc (ix2 p n)
      = Finset.univ.fold max (⊥ : EReal) fun m : Fin 1024 => s (ix3 p n m) := by
  refine (Ideal.multiReduction_maximumf_single s _ h hφ hacc (ix2 p n)).trans ?_
  have hf : (s ∘ h.lift (ix2 p n)) = fun m : Fin 1024 => s (ix3 p n m) := funext fun m => congrArg s (lift3_axis2 h p n m)
  have hb : FloatOps.ofBits (F := Ideal) .f32 0xFF800000#32 = (⊥ : EReal) := Consts.w_bot
  exact (congrArg (fun f => Finset.fold max (FloatOps.ofBits (F := Ideal) .f32 0xFF800000#32) f (Finset.univ : Finset (Fin 1024))) hf).trans
    (congrArg (fun b => Finset.fold max b (fun m : Fin 1024 => s (ix3 p n m)) (Finset.univ : Finset (Fin 1024))) hb)

/-! ## The constants' words -/

theorem one_word : FloatOps.ofBits (F := Ideal) .f32 0x3F800000#32 = (1 : EReal) := by
  rw [Ideal.ofBits_def, Consts.w_one]

theorem eps_word : FloatOps.ofBits (F := Ideal) .f32 0x3727C5AC#32 = ((Spec.epsR : ℝ) : EReal) := by
  rw [Ideal.ofBits_def, Consts.w_eps]; rfl

/-- The clip to `[0, 2]`, its bounds written as words. -/
theorem clip_words (y : EReal) :
    min (FloatOps.ofBits (F := Ideal) .f32 0x40000000#32) (max (FloatOps.ofBits (F := Ideal) .f32 0x00000000#32) y)
      = min ((2 : ℝ) : EReal) (max ((0 : ℝ) : EReal) y) := by
  rw [Ideal.ofBits_def, Ideal.ofBits_def, Consts.w_two, Consts.w_zero]

/-- The clip to `[0, 2]` of one minus `x`, the bounds and the one written as words, is the distance of `x`. -/
theorem dist_words (x : EReal) :
    min (FloatOps.ofBits (F := Ideal) .f32 0x40000000#32) (max (FloatOps.ofBits (F := Ideal) .f32 0x00000000#32)
      (FloatOps.ofBits (F := Ideal) .f32 0x3F800000#32 - x)) = RowMath.dist 0 2 x := by
  unfold RowMath.dist
  rw [clip_words, one_word]

/-- The weight of a distance `d` against the folded reciprocal `σ`, its clip bounds written as words and the
    bandwidth's reciprocal as the named constant. -/
theorem kerWeight_words (d σ : EReal) :
    Ideal.exp (min (FloatOps.ofBits (F := Ideal) .f32 0x42480000#32) (max (FloatOps.ofBits (F := Ideal) .f32 0xC2480000#32)
      (Named.named (F := Ideal) Cert.KernelIdeal.κ "inv_bw" (φ := .f32) 0x41200000#32 - d * σ)))
      = RowMath.kerWeight (-50) 50 Spec.invBwR σ d := by
  unfold RowMath.kerWeight
  rw [Ideal.ofBits_def, Ideal.ofBits_def, Consts.w_50, Consts.w_neg50, inv_bw]

/-! ## Pointwise steps, over any vectors and any scalars -/

theorem splat_sub_apply {s : Shape} (c : Ideal .f32) (v : FVec Ideal s .f32) (i : s.Idx) :
    subf (broadcast s c) v i = c - v i := rfl

/-- A clip of a splat minus a column kept as a unit axis, at `(p, n, u)`. -/
theorem dist_pt (c2 c0 c1 : Ideal .f32) (r : FVec Ideal S2x1024 .f32) (h : S2x1024.ShapeCasts S2x1024x1)
    (p : Fin 2) (n : Fin 1024) (u : Fin 1) :
    minimumf (broadcast S2x1024x1 c2) (maximumf (broadcast S2x1024x1 c0) (subf (broadcast S2x1024x1 c1) (shapeCast S2x1024x1 r h))) (ix3 p n u)
      = min c2 (max c0 (c1 - r (ix2 p n))) :=
  congrArg (fun t => min c2 (max c0 (c1 - t))) (shapeCast_ab_ab1_apply r h p n u)

theorem pay4_pt (c1 ce cbw : Ideal .f32) (v30 : FVec Ideal S2x1024x1 .f32) (i : S2x1024x1.Idx) :
    mulf (divf (broadcast S2x1024x1 c1) (maximumf v30 (broadcast S2x1024x1 ce))) (broadcast S2x1024x1 cbw) i
      = Ideal.div c1 (max (v30 i) ce) * cbw := rfl

/-! ## The row's least distance, the folded reciprocal, and the distances' block -/

theorem pay3_eq (x0 x1 : Vec Ideal S2x256x1024 .f32) :
    k0_pay3 (F := Ideal) x0 x1
      = minimumf (broadcast S2x1024x1 (Scalar.ofBits (F := Ideal) .f32 0x40000000#32))
          (maximumf (broadcast S2x1024x1 (Scalar.ofBits (F := Ideal) .f32 0x00000000#32))
            (subf (broadcast S2x1024x1 (Scalar.ofBits (F := Ideal) .f32 0x3F800000#32))
              (shapeCast S2x1024x1
                (multiReduction .maximumf [2] S2x1024 (k0_pay2 (F := Ideal) x0 x1) 0xFF800000#32 Facts₀.reduces_S2x1024x1024_S2x1024 (.inl rfl) rfl)
                Facts₀.shapeCasts_S2x1024_S2x1024x1))) := rfl

theorem pay4_eq (x0 x1 : Vec Ideal S2x256x1024 .f32) :
    k0_pay4 (F := Ideal) x0 x1
      = mulf (divf (broadcast S2x1024x1 (Scalar.ofBits (F := Ideal) .f32 0x3F800000#32))
            (maximumf (k0_pay3 (F := Ideal) x0 x1) (broadcast S2x1024x1 (Scalar.ofBits (F := Ideal) .f32 0x3727C5AC#32))))
          (broadcast S2x1024x1 (Named.named (F := Ideal) Cert.KernelIdeal.κ "inv_bw" (φ := .f32) 0x41200000#32)) := rfl

theorem pay5_eq (x0 x1 : Vec Ideal S2x256x1024 .f32) :
    k0_pay5 (F := Ideal) x0 x1
      = subf (broadcast S2x1024x1024 (Scalar.ofBits (F := Ideal) .f32 0x3F800000#32)) (k0_pay2 (F := Ideal) x0 x1) := rfl

/-- The row's least distance: the distance of the row's greatest similarity. -/
theorem pay3_apply (x0 x1 : Vec Ideal S2x256x1024 .f32) (p : Fin 2) (n : Fin 1024) (u : Fin 1) :
    k0_pay3 (F := Ideal) x0 x1 (ix3 p n u)
      = RowMath.dist 0 2 (Finset.univ.fold max ⊥ fun m => Spec.sim (fun k n => x0 (ix3 p k n)) (fun k n => x1 (ix3 p k n)) n m) := by
  rw [pay3_eq]
  refine (dist_pt _ _ _ _ _ p n u).trans ?_
  refine (dist_words _).trans ?_
  refine congrArg (RowMath.dist 0 2) ?_
  refine (rowmax_apply (k0_pay2 (F := Ideal) x0 x1) _ _ _ p n).trans ?_
  exact congrArg (fun f => Finset.fold max (⊥ : EReal) f (Finset.univ : Finset (Fin 1024))) (funext fun m => pay2_apply x0 x1 p n m)

/-- The folded reciprocal: one over the least distance floored at the small constant, times the bandwidth's reciprocal. -/
theorem pay4_apply (x0 x1 : Vec Ideal S2x256x1024 .f32) (p : Fin 2) (n : Fin 1024) (u : Fin 1) :
    k0_pay4 (F := Ideal) x0 x1 (ix3 p n u)
      = Ideal.div 1 (max (k0_pay3 (F := Ideal) x0 x1 (ix3 p n u)) ((Spec.epsR : ℝ) : EReal)) * ((Spec.invBwR : ℝ) : EReal) := by
  rw [pay4_eq]
  refine (pay4_pt _ _ _ _ _).trans ?_
  rw [one_word, eps_word, inv_bw]

/-- One minus the similarity. -/
theorem pay5_apply (x0 x1 : Vec Ideal S2x256x1024 .f32) (p : Fin 2) (n m : Fin 1024) :
    k0_pay5 (F := Ideal) x0 x1 (ix3 p n m) = 1 - Spec.sim (fun k n => x0 (ix3 p k n)) (fun k n => x1 (ix3 p k n)) n m := by
  rw [pay5_eq]
  refine (splat_sub_apply _ _ _).trans ?_
  rw [one_word, pay2_apply]

/-! ## The stored block: the rows' scores summed, over the word for 1024, on every lane -/

/-- A sum along the last axis, at `(p, n)`: the sum of row `n`'s entries. -/
theorem rowsum_apply (s : FVec Ideal S2x1024x1024 .f32) (h : S2x1024x1024.Reduces [2] S2x1024) (hφ : FKind.Formats .f32)
    (hacc : (0x00000000#32 : BitVec (FTy.bits .f32)) = FKind.add.neutral .f32 hφ) (p : Fin 2) (n : Fin 1024) :
    multiReduction .add [2] S2x1024 s 0x00000000#32 h hφ hacc (ix2 p n) = ∑ m : Fin 1024, s (ix3 p n m) := by
  refine (Ideal.multiReduction_add_single s _ h hφ hacc (ix2 p n)).trans ?_
  refine Finset.sum_congr rfl fun m _ => ?_
  exact congrArg s (lift3_axis2 h p n m)

/-- A sum along the middle axis of a one-column block, at `(p, u)`: the sum of the column's entries. -/
theorem colsum_apply (s : FVec Ideal S2x1024x1 .f32) (h : S2x1024x1.Reduces [1] S2x1) (hφ : FKind.Formats .f32)
    (hacc : (0x00000000#32 : BitVec (FTy.bits .f32)) = FKind.add.neutral .f32 hφ) (p : Fin 2) (u : Fin 1) :
    multiReduction .add [1] S2x1 s 0x00000000#32 h hφ hacc (ix2 p u) = ∑ n : Fin 1024, s (ix3 p n u) := by
  refine (Ideal.multiReduction_add_single s _ h hφ hacc (ix2 p u)).trans ?_
  refine Finset.sum_congr rfl fun n _ => ?_
  exact congrArg s (lift3_axis1 h p u n)

/-- The rows' numerators: the weight of each row's least distance. -/
def numV (v30 v36 : FVec Ideal S2x1024x1 .f32) : FVec Ideal S2x1024x1 .f32 :=
  exp (minimumf (broadcast S2x1024x1 (Scalar.ofBits (F := Ideal) .f32 0x42480000#32))
    (maximumf (broadcast S2x1024x1 (Scalar.ofBits (F := Ideal) .f32 0xC2480000#32))
      (subf (broadcast S2x1024x1 (Named.named (F := Ideal) Cert.KernelIdeal.κ "inv_bw" (φ := .f32) 0x41200000#32)) (mulf v30 v36))))

/-- The weights of every distance of every row. -/
def wgtV (v36 : FVec Ideal S2x1024x1 .f32) (v38 : FVec Ideal S2x1024x1024 .f32) (c : Ideal .f32) : FVec Ideal S2x1024x1024 .f32 :=
  exp (minimumf (broadcast S2x1024x1024 (Scalar.ofBits (F := Ideal) .f32 0x42480000#32))
    (maximumf (broadcast S2x1024x1024 (Scalar.ofBits (F := Ideal) .f32 0xC2480000#32))
      (subf (broadcast S2x1024x1024 (Named.named (F := Ideal) Cert.KernelIdeal.κ "inv_bw" (φ := .f32) 0x41200000#32))
        (mulf
          (minimumf (broadcast S2x1024x1024 (Scalar.ofBits (F := Ideal) .f32 0x40000000#32)) (maximumf (broadcast S2x1024x1024 c) v38))
          (broadcastTo S2x1024x1024 v36 Facts₀.broadcasts_S2x1024x1_S2x1024x1024)))))

/-- The rows' denominators: each row's weights summed, plus the small constant. -/
def denV (v36 : FVec Ideal S2x1024x1 .f32) (v38 : FVec Ideal S2x1024x1024 .f32) (c : Ideal .f32) : FVec Ideal S2x1024x1 .f32 :=
  addf
    (shapeCast S2x1024x1
      (multiReduction .add [2] S2x1024 (wgtV v36 v38 c) 0x00000000#32 Facts₀.reduces_S2x1024x1024_S2x1024 (.inl rfl) rfl)
      Facts₀.shapeCasts_S2x1024_S2x1024x1)
    (broadcast S2x1024x1 (Scalar.ofBits (F := Ideal) .f32 0x3727C5AC#32))

theorem num_pt (c50 cm50 cbw : Ideal .f32) (v30 v36 : FVec Ideal S2x1024x1 .f32) (i : S2x1024x1.Idx) :
    exp (minimumf (broadcast S2x1024x1 c50) (maximumf (broadcast S2x1024x1 cm50) (subf (broadcast S2x1024x1 cbw) (mulf v30 v36)))) i
      = Ideal.exp (min c50 (max cm50 (cbw - v30 i * v36 i))) := rfl

theorem wgt_pt (c50 cm50 cbw c2 c0 : Ideal .f32) (v36 : FVec Ideal S2x1024x1 .f32) (v38 : FVec Ideal S2x1024x1024 .f32)
    (h : S2x1024x1.Broadcasts S2x1024x1024) (p : Fin 2) (n m : Fin 1024) :
    exp (minimumf (broadcast S2x1024x1024 c50) (maximumf (broadcast S2x1024x1024 cm50) (subf (broadcast S2x1024x1024 cbw)
        (mulf (minimumf (broadcast S2x1024x1024 c2) (maximumf (broadcast S2x1024x1024 c0) v38)) (broadcastTo S2x1024x1024 v36 h))))) (ix3 p n m)
      = Ideal.exp (min c50 (max cm50 (cbw - min c2 (max c0 (v38 (ix3 p n m))) * v36 (ix3 p n (0 : Fin 1))))) :=
  congrArg (fun t => Ideal.exp (min c50 (max cm50 (cbw - min c2 (max c0 (v38 (ix3 p n m))) * t)))) (broadcastTo_ab1_abc_apply v36 h p n m)

theorem den_pt (ce : Ideal .f32) (r : FVec Ideal S2x1024 .f32) (h : S2x1024.ShapeCasts S2x1024x1) (p : Fin 2) (n : Fin 1024) (u : Fin 1) :
    addf (shapeCast S2x1024x1 r h) (broadcast S2x1024x1 ce) (ix3 p n u) = r (ix2 p n) + ce :=
  congrArg (fun t => t + ce) (shapeCast_ab_ab1_apply r h p n u)

theorem numV_apply (v30 v36 : FVec Ideal S2x1024x1 .f32) (p : Fin 2) (n : Fin 1024) (u : Fin 1) :
    numV v30 v36 (ix3 p n u) = RowMath.kerWeight (-50) 50 Spec.invBwR (v36 (ix3 p n u)) (v30 (ix3 p n u)) := by
  unfold numV
  exact (num_pt _ _ _ v30 v36 _).trans (kerWeight_words _ _)

theorem wgtV_apply (v36 : FVec Ideal S2x1024x1 .f32) (v38 : FVec Ideal S2x1024x1024 .f32) (p : Fin 2) (n m : Fin 1024) :
    wgtV v36 v38 (Scalar.ofBits (F := Ideal) .f32 0x00000000#32) (ix3 p n m)
      = RowMath.kerWeight (-50) 50 Spec.invBwR (v36 (ix3 p n (0 : Fin 1))) (min ((2 : ℝ) : EReal) (max ((0 : ℝ) : EReal) (v38 (ix3 p n m)))) := by
  unfold wgtV
  refine (wgt_pt _ _ _ _ _ v36 v38 _ p n m).trans ?_
  refine (kerWeight_words _ _).trans ?_
  rw [clip_words]

theorem denV_apply (v36 : FVec Ideal S2x1024x1 .f32) (v38 : FVec Ideal S2x1024x1024 .f32) (c : Ideal .f32) (p : Fin 2) (n : Fin 1024) (u : Fin 1) :
    denV v36 v38 c (ix3 p n u) = (∑ m : Fin 1024, wgtV v36 v38 c (ix3 p n m)) + ((Spec.epsR : ℝ) : EReal) := by
  unfold denV
  refine (den_pt _ _ _ p n u).trans ?_
  rw [eps_word]
  exact congrArg (fun t => t + ((Spec.epsR : ℝ) : EReal)) (rowsum_apply (wgtV v36 v38 c) _ _ _ p n)

/-- The stored block is the quotients' column summed, over the word for 1024, broadcast along the lanes. -/
theorem pay1_eq (v30 v36 : FVec Ideal S2x1024x1 .f32) (v38 : FVec Ideal S2x1024x1024 .f32) (c : Ideal .f32) :
    k0_pay1 (F := Ideal) v30 v36 v38 c
      = broadcastTo S2x1x128
          (shapeCast S2x1x1
            (divf
              (shapeCast S2x1x1
                (multiReduction .add [1] S2x1 (divf (numV v30 v36) (denV v36 v38 c)) 0x00000000#32 Facts₀.reduces_S2x1024x1_S2x1 (.inl rfl) rfl)
                Facts₀.shapeCasts_S2x1_S2x1x1)
              (broadcast S2x1x1 (Scalar.ofBits (F := Ideal) .f32 0x44800000#32)))
            Facts₀.shapeCasts_S2x1x1_S2x1x1)
          Facts₀.broadcasts_S2x1x1_S2x1x128 := rfl

/-- A column of two sums over a splat, kept as unit axes and broadcast along the lanes, at `(p, u, l)`. -/
theorem out_pt (c : Ideal .f32) (r : FVec Ideal S2x1 .f32) (h1 : S2x1.ShapeCasts S2x1x1) (h2 : S2x1x1.ShapeCasts S2x1x1)
    (h3 : S2x1x1.Broadcasts S2x1x128) (p : Fin 2) (u : Fin 1) (l : Fin 128) :
    broadcastTo S2x1x128 (shapeCast S2x1x1 (divf (shapeCast S2x1x1 r h1) (broadcast S2x1x1 c)) h2) h3 (ix3 p u l)
      = Ideal.div (r (ix2 p u)) c := by
  refine (broadcastTo_ab1_abc_apply _ h3 p u l).trans ?_
  refine (congrFun (shapeCast_self _ h2) _).trans ?_
  exact congrArg (fun t => Ideal.div t c) (shapeCast_ab_ab1_apply r h1 p u (0 : Fin 1))

theorem pay1_apply (v30 v36 : FVec Ideal S2x1024x1 .f32) (v38 : FVec Ideal S2x1024x1024 .f32) (c : Ideal .f32)
    (p : Fin 2) (u : Fin 1) (l : Fin 128) :
    k0_pay1 (F := Ideal) v30 v36 v38 c (ix3 p u l)
      = Ideal.div (∑ n : Fin 1024, Ideal.div (numV v30 v36 (ix3 p n u)) (denV v36 v38 c (ix3 p n u)))
          (FloatOps.ofBits (F := Ideal) .f32 0x44800000#32) := by
  rw [pay1_eq]
  refine (out_pt _ _ _ _ _ p u l).trans ?_
  exact congrArg (fun t => Ideal.div t (FloatOps.ofBits (F := Ideal) .f32 0x44800000#32))
    (colsum_apply (divf (numV v30 v36) (denV v36 v38 c)) _ _ _ p u)

/-- One row's score from the three quantities the kernel keeps for it: the least distance `a3`, the folded reciprocal
    `a4` and the row `a5` of one minus the similarities. -/
theorem row_score (s : Fin 1024 → EReal) (a3 a4 : EReal) (a5 : Fin 1024 → EReal)
    (h3 : a3 = RowMath.dist 0 2 (Finset.univ.fold max ⊥ s))
    (h4 : a4 = Ideal.div 1 (max a3 ((Spec.epsR : ℝ) : EReal)) * ((Spec.invBwR : ℝ) : EReal))
    (h5 : ∀ m, a5 m = 1 - s m) :
    Ideal.div (RowMath.kerWeight (-50) 50 Spec.invBwR a4 a3)
        ((∑ m, RowMath.kerWeight (-50) 50 Spec.invBwR a4 (min ((2 : ℝ) : EReal) (max ((0 : ℝ) : EReal) (a5 m)))) + ((Spec.epsR : ℝ) : EReal))
      = RowMath.kerScore 0 2 Spec.epsR (-50) 50 Spec.invBwR s := by
  obtain rfl : a5 = fun m => 1 - s m := funext h5
  subst h4 h3
  rfl

/-- The stored value at row `p`, lane `l`. -/
theorem payload_eq (x0 x1 : Vec Ideal S2x256x1024 .f32) (p : Fin 2) (l : Fin 128) :
    k0_pay1 (F := Ideal) (k0_pay3 x0 x1) (k0_pay4 x0 x1) (k0_pay5 x0 x1) (Scalar.ofBits .f32 0x00000000#32) (ix3 p (0 : Fin 1) l)
      = Spec.mean (fun k n => x0 (ix3 p k n)) (fun k n => x1 (ix3 p k n)) := by
  refine (pay1_apply _ _ _ _ p (0 : Fin 1) l).trans ?_
  unfold Spec.mean
  refine congrArg (fun t => Ideal.div t (Ideal.ofBits .f32 0x44800000#32)) ?_
  refine Finset.sum_congr rfl fun n _ => ?_
  rw [← Spec.kerScore_eq_rowScore, numV_apply, denV_apply]
  simp only [wgtV_apply]
  exact row_score (fun m => Spec.sim (fun k n => x0 (ix3 p k n)) (fun k n => x1 (ix3 p k n)) n m) _ _ _
    (pay3_apply x0 x1 p n 0) (pay4_apply x0 x1 p n 0) (fun m => pay5_apply x0 x1 p n m)

end Cert.KerSide

end
-- ==== Proof.KerArray.lean ====
/-
  From the kernel's blocks to its output array. Grid point `t` loads batch elements `2t` and `2t + 1` of both
  feature arrays and writes back rows `2t`, `2t + 1` of the [64, 1, 128] output, every lane of row `b` holding
  batch element `b`'s mean score; the 32 blocks tile the output, so after the run it is that function of the
  feature arrays at every index.
-/
import proofs.«428808_j73306501808909_3_alg».proof.Proof.Gen.KernelIdeal.Frame
import proofs.«428808_j73306501808909_3_alg».proof.Proof.KerSide
import proofs.«428808_j73306501808909_3_alg».proof.Proof.Spec
import Idealize.ShloMosaic.Lib.Pipeline.Value
import Idealize.ShloMosaic.Lib.ValueIdx

set_option maxRecDepth 16384

noncomputable section

namespace Cert.KerArray

open Cert.KernelIdeal Cert.KernelIdeal.Gen Idealize.ShloMosaic Idealize.ShloMosaic.TcCoe
open Idealize.SL.Sem
open Idealize.ShloMosaic.Pipeline (Dat Cfg Window)
open Idealize.ShloMosaic.ValueIdx

variable (m : (ℓ : Loc nD τ sig) → Buf (Elt Ideal) ℓ) (ρ : Dev nD → PrngReg)

/-- Batch element `b`'s feature matrix inside a [64, 256, 1024] array. -/
def featOf (A : S64x256x1024.Idx → EReal) (b : Fin 64) : Spec.Feat := fun k n => A (ix3 b k n)

/-- The output array as a function of the two feature arrays: row `b`, every lane, is batch element `b`'s mean. -/
def meanArr (A0 A1 : S64x256x1024.Idx → EReal) : S64x1x128.Idx → EReal := fun i =>
  Spec.mean (featOf A0 ⟨(i 0).val, (i 0).isLt⟩) (featOf A1 ⟨(i 0).val, (i 0).isLt⟩)

theorem hz : (![0, 0, 0] : Fin 3 → Nat) = fun _ => 0 := funext fun a => by fin_cases a <;> rfl

/-- The body's stored block over input blocks that are batch elements `2q`, `2q + 1` of two arrays: row `p` of
    the block is row `2q + p` of `meanArr`. -/
theorem block_value (x0 x1 : Vec Ideal S2x256x1024 .f32) (A0 A1 : S64x256x1024.Idx → EReal) (q : Nat) (hq : q ≤ 31)
    (h0 : ∀ (p : Fin 2) (k : Fin 256) (n : Fin 1024), x0 (ix3 p k n) = A0 (ix3 ⟨2 * q + p.val, by omega⟩ k n))
    (h1 : ∀ (p : Fin 2) (k : Fin 256) (n : Fin 1024), x1 (ix3 p k n) = A1 (ix3 ⟨2 * q + p.val, by omega⟩ k n))
    (j : S2x1x128.Idx) (i : S64x1x128.Idx) (hi : (i 0).val = 2 * q + (j 0).val) :
    k0_pay1 (F := Ideal) (k0_pay3 x0 x1) (k0_pay4 x0 x1) (k0_pay5 x0 x1) (Scalar.ofBits .f32 0x00000000#32) j
      = meanArr A0 A1 i := by
  obtain ⟨p, z, l, rfl⟩ : ∃ (p : Fin 2) (z : Fin 1) (l : Fin 128), j = ix3 p z l := ⟨j 0, j 1, j 2, eq_ix3 j⟩
  obtain rfl : z = 0 := Subsingleton.elim _ _
  rw [KerSide.payload_eq x0 x1 p l]
  unfold meanArr featOf
  have hb : (⟨(i 0).val, (i 0).isLt⟩ : Fin 64) = ⟨2 * q + p.val, by omega⟩ := Fin.ext hi
  rw [hb]
  congr 1
  · funext k n; exact h0 p k n
  · funext k n; exact h1 p k n

/-- The printed index maps, decided over the grid: all three windows move along the batch axis with the grid
    point and sit at block 0 of the other axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 31 :=
  (by decide +kernel : ∀ t : Fin grid0.N, _)

/-- Every pair of output rows is some point's block. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- WHAT POINT `t` WRITES BACK is block `t` of `meanArr` of the two feature arrays as the region finds them. -/
theorem flushed_eq (c : Dev nD) (t : Fin cfg0.N) :
    (dats m 0 c).flushed 2 t
      = ((cfg0.win 2).blk t).view.read (Elt Ideal) (meanArr (V m c main_v0) (V m c main_v1)) := by
  show (cfg0.win 2).cut (grid0.coords t) ((dats m 0 c).after 2 t) = _
  rw [after0_2]
  unfold out0_2
  rw [View.canon_unit_zero hz]
  simp only [View.ld_unit_zero (S := S2x256x1024) hz]
  obtain ⟨e0, e1, e2, e3, e4, e5, e6, e7, e8⟩ := idx_facts t
  funext j
  refine block_value (iblk m c 0 t) (iblk m c 1 t) (V m c main_v0) (V m c main_v1) (win0_2.index t (0 : Fin 3)) e8 ?_ ?_ j _ ?_
  · intro p k n
    show V m c main_v0 (((cfg0.win 0).blk t).view.emb (ix3 p k n)) = V m c main_v0 _
    refine congrArg _ (funext fun a => Fin.ext ?_)
    match a with
    | ⟨0, _⟩ => show win0_0.index t (0 : Fin 3) * 2 + 1 * p.val = 2 * win0_2.index t (0 : Fin 3) + p.val; omega
    | ⟨1, _⟩ => show win0_0.index t (1 : Fin 3) * 256 + 1 * k.val = k.val; omega
    | ⟨2, _⟩ => show win0_0.index t (2 : Fin 3) * 1024 + 1 * n.val = n.val; omega
  · intro p k n
    show V m c main_v1 (((cfg0.win 1).blk t).view.emb (ix3 p k n)) = V m c main_v1 _
    refine congrArg _ (funext fun a => Fin.ext ?_)
    match a with
    | ⟨0, _⟩ => show win0_1.index t (0 : Fin 3) * 2 + 1 * p.val = 2 * win0_2.index t (0 : Fin 3) + p.val; omega
    | ⟨1, _⟩ => show win0_1.index t (1 : Fin 3) * 256 + 1 * k.val = k.val; omega
    | ⟨2, _⟩ => show win0_1.index t (2 : Fin 3) * 1024 + 1 * n.val = n.val; omega
  · show win0_2.index t (0 : Fin 3) * 2 + 1 * (j 0).val = 2 * win0_2.index t (0 : Fin 3) + (j 0).val
    omega

/-- An index of the output is in point `t`'s block iff each coordinate is in the block's range on its axis. -/
theorem mem_blk (t : Fin cfg0.N) (i : S64x1x128.Idx) :
    i ∈ ((cfg0.win 2).blk t).view.set ↔ ∀ a : Fin 3, win0_2.index t a * S2x1x128.size a ≤ (i a).val
      ∧ (i a).val < win0_2.index t a * S2x1x128.size a + S2x1x128.size a := by
  show i ∈ ((View.whole main_v2).slice (win0_2.rect t)).set ↔ _
  rw [View.set_slice_whole, Rect.mem_set_unit]
  exact Iff.rfl

/-- The blocks tile the output: row `r` is in the block of point `r / 2`. -/
theorem cover (i : S64x1x128.Idx) :
    ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 128 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the run: `meanArr` of the two feature arrays as the region finds them. -/
theorem final (c : Dev nD) :
    (dats m 0 c).arrAt 2 cfg0.N = meanArr (V m c main_v0) (V m c main_v1) :=
  (dats m 0 c).arrAt_eq_of_cover 2 (meanArr (V m c main_v0) (V m c main_v1)) (fun t _ => flushed_eq m c t) cover

end Cert.KerArray

end
-- ==== Proof.KerTail.lean ====
/-
  The kernel program's result. After the region the host takes lane 0 of every row of the output array, adds
  `ε`, takes minus the logarithm and averages over the 64 batch elements (`lossOf`); before it the host only
  reshapes the two arguments from [64, 256, 32, 32] to [64, 256, 1024]. So the program's result is `lossOf` of
  the batch elements' mean scores of the reshaped arguments.
-/
import proofs.«428808_j73306501808909_3_alg».proof.Proof.Gen.KernelIdeal.Frame
import proofs.«428808_j73306501808909_3_alg».proof.Proof.KerArray
import Idealize.ShloMosaic.Lib.StableHlo.Run
import Idealize.ShloMosaic.Lib.Pipeline.Value
import Idealize.ShloMosaic.Lib.ValueIdx

set_option maxRecDepth 16384

noncomputable section

namespace Cert.KerTail

open Cert.KernelIdeal Cert.KernelIdeal.Gen Idealize.ShloMosaic Idealize.ShloMosaic.TcCoe
open Idealize.SL.Sem Idealize.ShloMosaic.StableHlo
open Idealize.ShloMosaic.ValueIdx
open Cert.KerArray (featOf meanArr)

variable (m : (ℓ : Loc nD τ sig) → Buf (Elt Ideal) ℓ) (ρ : Dev nD → PrngReg)

/-- The loss from the 64 per-batch means: the mean over the batch of `-log (mean + ε)`. -/
def lossOf (v : FVec Ideal S64 .f32) : FVec Ideal S_ .f32 :=
  Host.divf (F := Ideal)
    (Host.reduceAdd (F := Ideal)
      (Host.negf (F := Ideal) (Host.log (F := Ideal)
        (addf v (broadcastInDim S64 ![] bcast_S_S64 (constant (F := Ideal) S_ .f32 0x3727C5AC#32)))))
      (constant (F := Ideal) S_ .f32 0x00000000#32) reducesTo_S64_S_d0 h_S_)
    (constant (F := Ideal) S_ .f32 0x42800000#32)

/-- The per-batch means of two [64, 256, 1024] feature arrays, as a vector of 64. -/
def meansOf (A0 A1 : S64x256x1024.Idx → EReal) : FVec Ideal S64 .f32 := fun i =>
  Spec.mean (featOf A0 ⟨(i 0).val, (i 0).isLt⟩) (featOf A1 ⟨(i 0).val, (i 0).isLt⟩)

/-- The region finds the first feature array as the first argument reshaped. -/
theorem V_main_v0 (c : Dev nD) : V m c main_v0
    = shapeCast S64x256x1024 (m ((c : Thread nD τ).loc main_arg0)) shapeCasts_S64x256x32x32_S64x256x1024 := by
  show StableHlo.after hostOps0 (fun b => m (c, b)) (Proc.devRef .tc main_v0) = _
  after_results
  rfl

/-- The region finds the second feature array as the second argument reshaped. -/
theorem V_main_v1 (c : Dev nD) : V m c main_v1
    = shapeCast S64x256x1024 (m ((c : Thread nD τ).loc main_arg1)) shapeCasts_S64x256x32x32_S64x256x1024 := by
  show StableHlo.after hostOps0 (fun b => m (c, b)) (Proc.devRef .tc main_v1) = _
  after_results
  rfl

/-- Lane 0 of row `b` of the output array, taken by the host's slice and reshape. -/
theorem lane0 (A : S64x1x128.Idx → EReal) (i : S64.Idx) :
    shapeCast S64 (extractStridedSlice S64x1x1 ![0, 0, 0] A slices_S64x1x128_S64x1x1_0_0_0) shapeCasts_S64x1x1_S64 i
      = A (ix3 ⟨(i 0).val, (i 0).isLt⟩ (0 : Fin 1) (0 : Fin 128)) := by
  refine (shapeCast_apply _ shapeCasts_S64x1x1_S64 i (ix3 ⟨(i 0).val, (i 0).isLt⟩ (0 : Fin 1) (0 : Fin 1)) ?_).trans ?_
  · rw [Shape.rowMajor_val_three, Shape.rowMajor_val_one]
    show (((i 0).val * 1 + 0) * 1 + 0) = (i 0).val
    omega
  · refine extractStridedSlice_apply _ A slices_S64x1x128_S64x1x1_0_0_0 _ (ix3 ⟨(i 0).val, (i 0).isLt⟩ (0 : Fin 1) (0 : Fin 128)) ?_
    intro a
    match a with
    | ⟨0, _⟩ => show (i 0).val = 0 + (i 0).val; omega
    | ⟨1, _⟩ => rfl
    | ⟨2, _⟩ => rfl

/-- THE KERNEL PROGRAM'S RESULT: `lossOf` of the per-batch means of the reshaped arguments. -/
theorem result_eq (c : Dev nD) :
    Pipeline.afterTail₀ cfgs (dats m) 0 (V0 m) [hostOps1] c main_v10
      = lossOf (meansOf
          (shapeCast S64x256x1024 (m ((c : Thread nD τ).loc main_arg0)) shapeCasts_S64x256x32x32_S64x256x1024)
          (shapeCast S64x256x1024 (m ((c : Thread nD τ).loc main_arg1)) shapeCasts_S64x256x32x32_S64x256x1024)) := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v2)
      = meanArr (V m c main_v0) (V m c main_v1) :=
    (Pipeline.withArrays_arr spec0 launch0.win.arr_inj c _ _ 2).trans (KerArray.final m c)
  rw [hA, V_main_v0, V_main_v1]
  show lossOf (shapeCast S64 (extractStridedSlice S64x1x1 ![0, 0, 0] (meanArr _ _) slices_S64x1x128_S64x1x1_0_0_0) shapeCasts_S64x1x1_S64) = _
  refine congrArg lossOf (funext fun i => ?_)
  rw [lane0]
  rfl

end Cert.KerTail

end
-- ==== Proof.RefSide.lean ====
/-
  The reference's per-batch mean, read off its generated stages: stage `main_v37` at batch element `b` is
  `Spec.mean` of that element's two feature matrices (the reshaped arguments' slices at `b`).
-/
import proofs.«428808_j73306501808909_3_alg».proof.Proof.Gen.ReferenceIdeal.Read
import proofs.«428808_j73306501808909_3_alg».proof.Proof.Spec
import proofs.«428808_j73306501808909_3_alg».proof.Proof.Consts
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.TcCoe
open Idealize.ShloMosaic.ValueIdx

section Stages

variable (x0 x1 : (⟨S64x256x32x32, .f32⟩ : BufTy).Contents (Elt Ideal))

/-! ## Where each layout stage reads -/

theorem idx_call0_v1 (b : Fin 64) (n : Fin 1024) (k : Fin 256) : idx_main_call0_v1 (ix2 b n) k = ix3 b k n := by
  funext a; apply Fin.ext; match a with | ⟨0, _⟩ => rfl | ⟨1, _⟩ => rfl | ⟨2, _⟩ => rfl

theorem idx_call0_v2 (b : Fin 64) (z : Fin 1) (n : Fin 1024) : idx_main_call0_v2 (ix3 b z n) = ix2 b n := by
  funext a; apply Fin.ext; match a with | ⟨0, _⟩ => rfl | ⟨1, _⟩ => rfl

theorem idx_v5 (b : Fin 64) (k : Fin 256) (n : Fin 1024) : idx_main_v5 (ix3 b k n) = ix3 b (0 : Fin 1) n := by
  funext a; apply Fin.ext; match a with | ⟨0, _⟩ => rfl | ⟨1, _⟩ => rfl | ⟨2, _⟩ => rfl

/-! ## The unit vectors -/

/-- The squared norm of position `n`'s feature vector in the first argument. -/
theorem call0_v1_eq (b : Fin 64) (n : Fin 1024) :
    val_main_call0_v1 (F := Ideal) x0 (ix2 b n)
      = ∑ k : Fin 256, val_main_v0 (F := Ideal) x0 (ix3 b k n) * val_main_v0 (F := Ideal) x0 (ix3 b k n) := by
  rw [val_main_call0_v1_apply, val_main_call0_cst_apply, Ideal.ofBits_def, Consts.w_zero, EReal.coe_zero, zero_add]
  refine Finset.sum_congr rfl fun k _ => ?_
  rw [idx_call0_v1, val_main_call0_v0_apply, Ideal.mulf_def]

/-- The floored norm. -/
theorem v4_eq (b : Fin 64) (n : Fin 1024) :
    val_main_v4 (F := Ideal) x0 (ix3 b (0 : Fin 1) n)
      = max (Ideal.sqrt (∑ k : Fin 256, val_main_v0 (F := Ideal) x0 (ix3 b k n) * val_main_v0 (F := Ideal) x0 (ix3 b k n)))
          (Ideal.ofBits .f32 0x3727C5AC#32) := by
  rw [val_main_v4_apply, val_main_v2_apply, val_main_call0_v2_apply, idx_call0_v2, call0_v1_eq, val_main_v3_apply,
    val_main_cst_apply, Ideal.maximumf_def, Ideal.hostUnary_sqrt_def, Ideal.ofBits_def]

/-- Stage `main_v6` is the first argument's unit vectors. -/
theorem v6_eq (b : Fin 64) (k : Fin 256) (n : Fin 1024) :
    val_main_v6 (F := Ideal) x0 (ix3 b k n)
      = Spec.unit (fun k n => val_main_v0 (F := Ideal) x0 (ix3 b k n)) k n := by
  rw [val_main_v6_apply, val_main_v5_apply, idx_v5, v4_eq, Ideal.hostDivf_def]
  rfl

theorem idx_call1_v1 (b : Fin 64) (n : Fin 1024) (k : Fin 256) : idx_main_call1_v1 (ix2 b n) k = ix3 b k n := by
  funext a; apply Fin.ext; match a with | ⟨0, _⟩ => rfl | ⟨1, _⟩ => rfl | ⟨2, _⟩ => rfl

theorem idx_call1_v2 (b : Fin 64) (z : Fin 1) (n : Fin 1024) : idx_main_call1_v2 (ix3 b z n) = ix2 b n := by
  funext a; apply Fin.ext; match a with | ⟨0, _⟩ => rfl | ⟨1, _⟩ => rfl

theorem idx_v10 (b : Fin 64) (k : Fin 256) (n : Fin 1024) : idx_main_v10 (ix3 b k n) = ix3 b (0 : Fin 1) n := by
  funext a; apply Fin.ext; match a with | ⟨0, _⟩ => rfl | ⟨1, _⟩ => rfl | ⟨2, _⟩ => rfl

theorem lidx_v12 (b : Fin 64) (n m : Fin 1024) (k : Fin 256) : lidx_main_v12 (ix3 b n m) k = ix3 b k n := by
  funext a; apply Fin.ext; match a with | ⟨0, _⟩ => rfl | ⟨1, _⟩ => rfl | ⟨2, _⟩ => rfl

theorem ridx_v12 (b : Fin 64) (n m : Fin 1024) (k : Fin 256) : ridx_main_v12 (ix3 b n m) k = ix3 b k m := by
  funext a; apply Fin.ext; match a with | ⟨0, _⟩ => rfl | ⟨1, _⟩ => rfl | ⟨2, _⟩ => rfl

/-- The squared norm of position `n`'s feature vector in the second argument. -/
theorem call1_v1_eq (b : Fin 64) (n : Fin 1024) :
    val_main_call1_v1 (F := Ideal) x1 (ix2 b n)
      = ∑ k : Fin 256, val_main_v1 (F := Ideal) x1 (ix3 b k n) * val_main_v1 (F := Ideal) x1 (ix3 b k n) := by
  rw [val_main_call1_v1_apply, val_main_call1_cst_apply, Ideal.ofBits_def, Consts.w_zero, EReal.coe_zero, zero_add]
  refine Finset.sum_congr rfl fun k _ => ?_
  rw [idx_call1_v1, val_main_call1_v0_apply, Ideal.mulf_def]

/-- Its floored norm. -/
theorem v9_eq (b : Fin 64) (n : Fin 1024) :
    val_main_v9 (F := Ideal) x1 (ix3 b (0 : Fin 1) n)
      = max (Ideal.sqrt (∑ k : Fin 256, val_main_v1 (F := Ideal) x1 (ix3 b k n) * val_main_v1 (F := Ideal) x1 (ix3 b k n)))
          (Ideal.ofBits .f32 0x3727C5AC#32) := by
  rw [val_main_v9_apply, val_main_v7_apply, val_main_call1_v2_apply, idx_call1_v2, call1_v1_eq, val_main_v8_apply,
    val_main_cst_0_apply, Ideal.maximumf_def, Ideal.hostUnary_sqrt_def, Ideal.ofBits_def]

/-- Stage `main_v11` is the second argument's unit vectors. -/
theorem v11_eq (b : Fin 64) (k : Fin 256) (n : Fin 1024) :
    val_main_v11 (F := Ideal) x1 (ix3 b k n)
      = Spec.unit (fun k n => val_main_v1 (F := Ideal) x1 (ix3 b k n)) k n := by
  rw [val_main_v11_apply, val_main_v10_apply, idx_v10, v9_eq, Ideal.hostDivf_def]
  rfl

/-! ## Similarities and distances -/

/-- Stage `main_v12` is the matrix of inner products of unit vectors. -/
theorem v12_eq (b : Fin 64) (n m : Fin 1024) :
    val_main_v12 (F := Ideal) x0 x1 (ix3 b n m)
      = Spec.sim (fun k n => val_main_v0 (F := Ideal) x0 (ix3 b k n)) (fun k n => val_main_v1 (F := Ideal) x1 (ix3 b k n)) n m := by
  rw [val_main_v12_apply]
  unfold Spec.sim
  refine Finset.sum_congr rfl fun k _ => ?_
  rw [lidx_v12, ridx_v12, v6_eq, v11_eq]

/-- Stage `main_v15` is one minus the similarity, clipped to `[0, 2]`. -/
theorem v15_eq (b : Fin 64) (n m : Fin 1024) :
    val_main_v15 (F := Ideal) x0 x1 (ix3 b n m)
      = RowMath.dist 0 2 (Spec.sim (fun k n => val_main_v0 (F := Ideal) x0 (ix3 b k n))
          (fun k n => val_main_v1 (F := Ideal) x1 (ix3 b k n)) n m) := by
  rw [val_main_v15_apply, val_main_call2_v4_apply, val_main_call2_v3_apply, val_main_cst_3_apply,
    val_main_call2_v2_apply, val_main_call2_v1_apply, val_main_call2_v0_apply, val_main_cst_2_apply,
    val_main_v14_apply, val_main_v13_apply, val_main_cst_1_apply, v12_eq,
    Ideal.minimumf_def, Ideal.maximumf_def, Ideal.subf_def, Ideal.ofBits_def, Ideal.ofBits_def, Ideal.ofBits_def,
    Consts.w_two, Consts.w_zero, Consts.w_one]
  rfl

/-! ## The rows' least distance -/

theorem idx_v17 (b : Fin 64) (n : Fin 1024) (z : Fin 1) : idx_main_v17 (ix3 b n z) = ix2 b n := by
  funext a; apply Fin.ext; match a with | ⟨0, _⟩ => rfl | ⟨1, _⟩ => rfl

theorem idx_v20 (b : Fin 64) (n m : Fin 1024) : idx_main_v20 (ix3 b n m) = ix3 b n (0 : Fin 1) := by
  funext a; apply Fin.ext; match a with | ⟨0, _⟩ => rfl | ⟨1, _⟩ => rfl | ⟨2, _⟩ => rfl

/-- Row `(b, n)` with column `k` put back is `(b, n, k)`. -/
theorem lift_row (h : S64x1024x1024.Reduces [2] S64x1024) (b : Fin 64) (n : Fin 1024) (k : Fin (S64x1024x1024.size 2)) :
    h.lift (ix2 b n) k = ix3 b n (⟨k.val, k.isLt⟩ : Fin 1024) := by
  funext c; apply Fin.ext
  match c with | ⟨0, _⟩ => rfl | ⟨1, _⟩ => rfl | ⟨2, _⟩ => rfl

/-- Stage `main_v16` is each row's least distance. -/
theorem v16_eq (b : Fin 64) (n : Fin 1024) :
    val_main_v16 (F := Ideal) x0 x1 (ix2 b n)
      = (Finset.univ : Finset (Fin 1024)).fold min ⊤ fun m => RowMath.dist 0 2
          (Spec.sim (fun k n => val_main_v0 (F := Ideal) x0 (ix3 b k n)) (fun k n => val_main_v1 (F := Ideal) x1 (ix3 b k n)) n m) := by
  unfold val_main_v16
  have h : S64x1024x1024.Reduces [2] S64x1024 := by decide
  rw [Host.reduce_eq_fold_single FloatOps.minimumf _ _ reducesTo_S64x1024x1024_S64x1024_d2 h h_S_]
  have hf : (val_main_v15 (F := Ideal) x0 x1 ∘ h.lift (ix2 b n)) = fun m : Fin 1024 => RowMath.dist 0 2
      (Spec.sim (fun k n => val_main_v0 (F := Ideal) x0 (ix3 b k n)) (fun k n => val_main_v1 (F := Ideal) x1 (ix3 b k n)) n m) :=
    funext fun k => (congrArg (val_main_v15 (F := Ideal) x0 x1) (lift_row h b n k)).trans (v15_eq x0 x1 b n _)
  rw [hf, val_main_cst_4_apply, Ideal.ofBits_def, Consts.w_top]
  rfl

/-- Stage `main_v20` is the row's least distance floored at `ε`, along the row. -/
theorem v20_eq (b : Fin 64) (n m : Fin 1024) :
    val_main_v20 (F := Ideal) x0 x1 (ix3 b n m)
      = max ((Finset.univ : Finset (Fin 1024)).fold min ⊤ fun m => RowMath.dist 0 2
          (Spec.sim (fun k n => val_main_v0 (F := Ideal) x0 (ix3 b k n)) (fun k n => val_main_v1 (F := Ideal) x1 (ix3 b k n)) n m))
          ((Spec.epsR : ℝ) : EReal) := by
  rw [val_main_v20_apply, idx_v20, val_main_v19_apply, val_main_v17_apply, idx_v17, v16_eq, val_main_v18_apply,
    val_main_cst_5_apply, Ideal.maximumf_def, Ideal.ofBits_def, Consts.w_eps]
  rfl

/-! ## The weights -/

/-- Stage `main_v27` is the weight of each distance against its row's floored least distance. -/
theorem v27_eq (b : Fin 64) (n m : Fin 1024) :
    val_main_v27 (F := Ideal) x0 x1 (ix3 b n m)
      = RowMath.refWeight (-50) 50 Spec.bwR
          (max ((Finset.univ : Finset (Fin 1024)).fold min ⊤ fun m => RowMath.dist 0 2
            (Spec.sim (fun k n => val_main_v0 (F := Ideal) x0 (ix3 b k n)) (fun k n => val_main_v1 (F := Ideal) x1 (ix3 b k n)) n m))
            ((Spec.epsR : ℝ) : EReal))
          (RowMath.dist 0 2
            (Spec.sim (fun k n => val_main_v0 (F := Ideal) x0 (ix3 b k n)) (fun k n => val_main_v1 (F := Ideal) x1 (ix3 b k n)) n m)) := by
  rw [val_main_v27_apply, val_main_v26_apply, val_main_call3_v4_apply, val_main_call3_v3_apply, val_main_cst_9_apply,
    val_main_call3_v2_apply, val_main_call3_v1_apply, val_main_call3_v0_apply, val_main_cst_8_apply,
    val_main_v25_apply, val_main_v24_apply, val_main_cst_7_apply, val_main_v23_apply, val_main_v22_apply,
    val_main_cst_6_apply, val_main_v21_apply, v15_eq, v20_eq,
    Ideal.hostUnary_exp_def, Ideal.minimumf_def, Ideal.maximumf_def, Ideal.hostDivf_def, Ideal.hostDivf_def, Ideal.subf_def,
    Ideal.ofBits_def, Ideal.ofBits_def, Ideal.ofBits_def, Ideal.ofBits_def,
    Consts.w_50, Consts.w_neg50, Consts.w_tenth, Consts.w_one]
  rfl

theorem idx_v28 (b : Fin 64) (n k : Fin 1024) : idx_main_v28 (ix2 b n) k = ix3 b n k := by
  funext a; apply Fin.ext; match a with | ⟨0, _⟩ => rfl | ⟨1, _⟩ => rfl | ⟨2, _⟩ => rfl

theorem idx_v29 (b : Fin 64) (n : Fin 1024) (z : Fin 1) : idx_main_v29 (ix3 b n z) = ix2 b n := by
  funext a; apply Fin.ext; match a with | ⟨0, _⟩ => rfl | ⟨1, _⟩ => rfl

theorem idx_v32 (b : Fin 64) (n m : Fin 1024) : idx_main_v32 (ix3 b n m) = ix3 b n (0 : Fin 1) := by
  funext a; apply Fin.ext; match a with | ⟨0, _⟩ => rfl | ⟨1, _⟩ => rfl | ⟨2, _⟩ => rfl

theorem idx_v35 (b : Fin 64) (k : Fin 1024) : idx_main_v35 (ix1 b) k = ix2 b k := by
  funext a; apply Fin.ext; match a with | ⟨0, _⟩ => rfl | ⟨1, _⟩ => rfl

/-- Stage `main_v32` is the row's sum of weights plus `ε`, along the row. -/
theorem v32_eq (b : Fin 64) (n m : Fin 1024) :
    val_main_v32 (F := Ideal) x0 x1 (ix3 b n m)
      = (∑ j : Fin 1024, RowMath.refWeight (-50) 50 Spec.bwR
          (max ((Finset.univ : Finset (Fin 1024)).fold min ⊤ fun m => RowMath.dist 0 2
            (Spec.sim (fun k n => val_main_v0 (F := Ideal) x0 (ix3 b k n)) (fun k n => val_main_v1 (F := Ideal) x1 (ix3 b k n)) n m))
            ((Spec.epsR : ℝ) : EReal))
          (RowMath.dist 0 2
            (Spec.sim (fun k n => val_main_v0 (F := Ideal) x0 (ix3 b k n)) (fun k n => val_main_v1 (F := Ideal) x1 (ix3 b k n)) n j)))
        + ((Spec.epsR : ℝ) : EReal) := by
  rw [val_main_v32_apply, idx_v32, val_main_v31_apply, val_main_v29_apply, idx_v29, val_main_v28_apply,
    val_main_cst_10_apply, val_main_v30_apply, val_main_cst_11_apply, Ideal.addf_def, Ideal.ofBits_def, Ideal.ofBits_def,
    Consts.w_zero, Consts.w_eps, EReal.coe_zero, zero_add]
  refine congrArg₂ (· + ·) (Finset.sum_congr rfl fun j _ => ?_) rfl
  rw [idx_v28, v27_eq]

/-! ## The rows' scores and their mean -/

/-- Stage `main_v34` is each row's score: the greatest of its weights' quotients by their sum plus `ε`. -/
theorem v34_eq (b : Fin 64) (n : Fin 1024) :
    val_main_v34 (F := Ideal) x0 x1 (ix2 b n)
      = Spec.rowScore (fun k n => val_main_v0 (F := Ideal) x0 (ix3 b k n)) (fun k n => val_main_v1 (F := Ideal) x1 (ix3 b k n)) n := by
  unfold val_main_v34
  have h : S64x1024x1024.Reduces [2] S64x1024 := by decide
  rw [Host.reduce_eq_fold_single FloatOps.maximumf _ _ reducesTo_S64x1024x1024_S64x1024_d2 h h_S_]
  have hf : (val_main_v33 (F := Ideal) x0 x1 ∘ h.lift (ix2 b n)) = fun m : Fin 1024 =>
      Ideal.div (val_main_v27 (F := Ideal) x0 x1 (ix3 b n m)) (val_main_v32 (F := Ideal) x0 x1 (ix3 b n m)) :=
    funext fun k => congrArg (val_main_v33 (F := Ideal) x0 x1) (lift_row h b n k)
  rw [hf, val_main_cst_12_apply, Ideal.ofBits_def, Consts.w_bot]
  simp only [v27_eq, v32_eq]
  rfl

end Stages

/-- Stage `main_v37` (the mean over the 1024 rows of the rows' greatest normalised weight) at batch element `b`. -/
theorem mean_eq (x0 x1 : (⟨S64x256x32x32, .f32⟩ : BufTy).Contents (Elt Ideal)) (b : Fin 64) :
    val_main_v37 (F := Ideal) x0 x1 (ix1 b)
      = Spec.mean (fun k n => val_main_v0 (F := Ideal) x0 (ix3 b k n)) (fun k n => val_main_v1 (F := Ideal) x1 (ix3 b k n)) := by
  rw [val_main_v37_apply, val_main_v35_apply, val_main_cst_13_apply, val_main_v36_apply, val_main_cst_14_apply,
    Ideal.hostDivf_def, Ideal.ofBits_def, Ideal.ofBits_def, Consts.w_zero, EReal.coe_zero, zero_add]
  unfold Spec.mean
  refine congrArg (fun s => Ideal.div s (Ideal.ofBits .f32 0x44800000#32)) (Finset.sum_congr rfl fun n _ => ?_)
  rw [idx_v35, v34_eq]

end Cert.RefSide

end
-- ==== Proof.RefTail.lean ====
/-
  The reference program's result in the kernel program's terms: its last stages are the same mean over the
  batch of `-log (mean + ε)` (`KerTail.lossOf`), applied to its own per-batch means, which are `Spec.mean` of
  the reshaped arguments' batch elements (`RefSide.mean_eq`).
-/
import proofs.«428808_j73306501808909_3_alg».proof.Proof.Gen.ReferenceIdeal.Read
import proofs.«428808_j73306501808909_3_alg».proof.Proof.RefSide
import proofs.«428808_j73306501808909_3_alg».proof.Proof.KerTail

noncomputable section

namespace Cert.RefTail

open Idealize.ShloMosaic Idealize.ShloMosaic.TcCoe Idealize.SL.Sem
open Idealize.ShloMosaic.ValueIdx
open Cert.ReferenceIdeal Cert.ReferenceIdeal.Gen Cert.ReferenceIdeal.Read

/-- The reference's per-batch means are `Spec.mean` of the reshaped arguments' batch elements. -/
theorem means_eq (x0 x1 : (⟨S64x256x32x32, .f32⟩ : BufTy).Contents (Elt Ideal)) :
    val_main_v37 (F := Ideal) x0 x1
      = Cert.KerTail.meansOf (val_main_v0 (F := Ideal) x0) (val_main_v1 (F := Ideal) x1) := by
  funext i
  obtain ⟨b, rfl⟩ : ∃ b : Fin 64, i = ix1 b := ⟨i 0, eq_ix1 i⟩
  exact Cert.RefSide.mean_eq x0 x1 b

/-- The reference's result is the loss of its per-batch means. -/
theorem result_eq (x0 x1 : (⟨S64x256x32x32, .f32⟩ : BufTy).Contents (Elt Ideal)) :
    val_main_v43 (F := Ideal) x0 x1
      = Cert.KerTail.lossOf (Cert.KerTail.meansOf
          (shapeCast S64x256x1024 x0 shapeCasts_S64x256x32x32_S64x256x1024)
          (shapeCast S64x256x1024 x1 shapeCasts_S64x256x32x32_S64x256x1024)) := by
  have h : val_main_v43 (F := Ideal) x0 x1 = Cert.KerTail.lossOf (val_main_v37 (F := Ideal) x0 x1) := rfl
  rw [h, means_eq]
  rfl

end Cert.RefTail

end
-- ==== Proof.lean ====
/-
  The certificate of the contextual-similarity loss kernel against its jnp reference, over the extended reals.

  Both programs normalise each position's 256-channel feature vector, take all pairwise similarities within a
  batch element, turn each row of similarities into a score, average the 1024 row scores of each batch element
  and return the mean over the 64 batch elements of minus the logarithm of that average plus `ε`. They differ
  in how a row is scored. The reference clips the distances `1 - s`, takes their least, divides, forms the
  weights `exp (clip ((1 - d/δ) / 0.1))`, normalises them and takes the greatest. The kernel takes the greatest
  similarity first, multiplies by the folded reciprocal of the bandwidth (named `inv_bw`: the exact reciprocal
  of the reference's bandwidth word), and gets the greatest weight from the least distance. `RowMath.score_eq`
  proves the two row scores equal on the extended reals; `RefSide` reads the reference's stages and `KerSide`
  the kernel body's stored value as `Spec.mean`; `KerArray` carries the body's blocks to the output array and
  `KerTail` / `RefTail` the shared last host operations.
-/
import proofs.«428808_j73306501808909_3_alg».proof.Defs
import proofs.«428808_j73306501808909_3_alg».proof.Proof.Gen.Kernel
import proofs.«428808_j73306501808909_3_alg».proof.Proof.Gen.Kernel.Skeleton
import proofs.«428808_j73306501808909_3_alg».proof.Proof.Gen.Kernel.Launch
import proofs.«428808_j73306501808909_3_alg».proof.Proof.Gen.Kernel.Points
import proofs.«428808_j73306501808909_3_alg».proof.Proof.Gen.Kernel.Frame
import proofs.«428808_j73306501808909_3_alg».proof.Proof.Gen.KernelIdeal
import proofs.«428808_j73306501808909_3_alg».proof.Proof.Gen.KernelIdeal.Skeleton
import proofs.«428808_j73306501808909_3_alg».proof.Proof.Gen.KernelIdeal.Launch
import proofs.«428808_j73306501808909_3_alg».proof.Proof.Gen.KernelIdeal.Points
import proofs.«428808_j73306501808909_3_alg».proof.Proof.Gen.KernelIdeal.Frame
import proofs.«428808_j73306501808909_3_alg».proof.Proof.Gen.ReferenceIdeal
import proofs.«428808_j73306501808909_3_alg».proof.Proof.Gen.Pre_finite_inputs
import proofs.«428808_j73306501808909_3_alg».proof.Proof.Gen.ReferenceIdeal.Run
import proofs.«428808_j73306501808909_3_alg».proof.Proof.Gen.ReferenceIdeal.Read
import proofs.«428808_j73306501808909_3_alg».proof.Proof.KerTail
import proofs.«428808_j73306501808909_3_alg».proof.Proof.RefTail
import Idealize.ShloMosaic.Adequacy
import Idealize.ShloMosaic.Init

noncomputable section

namespace Cert.Proof

open Idealize.ShloMosaic Idealize.ShloMosaic.TcCoe Idealize.SL.Sem

/-- The three frames: the two kernel programs' are generated whole; the reference has no kernel, and its frame
    is its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's three entries are one fact: the table gives `"inv_bw"` the value `134217728 / 13421773`, the
    exact reciprocal of the f32 word nearest `0.1`, and each printed occurrence of the constant is that value. -/
theorem preserves : Cert.preserves_Kernel_KernelIdeal :=
  ⟨IdealRules.named_const.statement Cert.KernelIdeal.κ "inv_bw" .f32 0x41200000#32 ((134217728 / 13421773 : ℝ) : EReal) rfl,
   IdealRules.named_const.statement Cert.KernelIdeal.κ "inv_bw" .f32 0x41200000#32 ((134217728 / 13421773 : ℝ) : EReal) rfl,
   IdealRules.named_const.statement Cert.KernelIdeal.κ "inv_bw" .f32 0x41200000#32 ((134217728 / 13421773 : ℝ) : EReal) rfl⟩

/-- Both programs end at the loss of the per-batch means of the reshaped arguments. -/
theorem algebraic : Cert.algebraic_KernelIdeal_ReferenceIdeal := by
  intro m ρ m' ρ' _ hagree
  refine ⟨fun c => Cert.KerTail.lossOf (Cert.KerTail.meansOf
      (shapeCast Cert.KernelIdeal.S64x256x1024 (m ((c : Thread Cert.KernelIdeal.nD Cert.KernelIdeal.τ).loc Cert.KernelIdeal.main_arg0))
        Cert.KernelIdeal.Facts₀.shapeCasts_S64x256x32x32_S64x256x1024)
      (shapeCast Cert.KernelIdeal.S64x256x1024 (m ((c : Thread Cert.KernelIdeal.nD Cert.KernelIdeal.τ).loc Cert.KernelIdeal.main_arg1))
        Cert.KernelIdeal.Facts₀.shapeCasts_S64x256x32x32_S64x256x1024)), ?_, ?_⟩
  · refine (θ_run Cert.KernelIdeal.defs _ _).mono (fun r h c => ⟨?_, ?_, ?_⟩) (Cert.KernelIdeal.Gen.run_main m ρ)
    · exact ((h c).2 Cert.KernelIdeal.main_v10 (Pipeline.mem_restRefs_of Cert.KernelIdeal.main_v10 (by decide) (by decide))).trans
        (Cert.KerTail.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v43_eq, (hagree c).1, (hagree c).2, Cert.RefTail.result_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
